-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1024x30 : Shape := ⟨3, ![2, 1024, 30]⟩
abbrev S60x64 : Shape := ⟨2, ![60, 64]⟩
abbrev S64 : Shape := ⟨1, ![64]⟩
abbrev S64x30 : Shape := ⟨2, ![64, 30]⟩
abbrev S30 : Shape := ⟨1, ![30]⟩
abbrev S_ : Shape := ⟨0, ![]⟩

class Facts : Prop where
  bcast_S_S2x1024x30 : S_.BroadcastsInDim S2x1024x30 (![] : Fin 0 → Fin S2x1024x30.rank)
  reducesTo_S2x1024x30_S_d0_1_2 : S2x1024x30.ReducesTo [0, 1, 2] S_
  h_S_ : 0 < S_.numel
  bcast_S_S60x64 : S_.BroadcastsInDim S60x64 (![] : Fin 0 → Fin S60x64.rank)
  reducesTo_S60x64_S_d0_1 : S60x64.ReducesTo [0, 1] S_
  bcast_S_S64 : S_.BroadcastsInDim S64 (![] : Fin 0 → Fin S64.rank)
  reducesTo_S64_S_d0 : S64.ReducesTo [0] S_
  bcast_S_S64x30 : S_.BroadcastsInDim S64x30 (![] : Fin 0 → Fin S64x30.rank)
  reducesTo_S64x30_S_d0_1 : S64x30.ReducesTo [0, 1] S_
  bcast_S_S30 : S_.BroadcastsInDim S30 (![] : Fin 0 → Fin S30.rank)
  reducesTo_S30_S_d0 : S30.ReducesTo [0] S_

variable [Facts]

def fn_part1 {F : FTy → Type} [FloatOps F] (main_arg4 : FVec F S30 .f32) (main_v13 : IVec S_ 1) (main_v16 : IVec S64x30 1) : IVec S_ 1 :=
  let main_c_5 : IVec S_ 1 := constantI S_ 1 1#1
  let main_v17 : IVec S_ 1 := (fun x v => Host.reduce IntOp.andi x v reducesTo_S64x30_S_d0_1 h_S_) main_v16 main_c_5
  let main_v18 : IVec S_ 1 := andi main_v13 main_v17
  let main_v19 : FVec F S30 .f32 := Host.absf main_arg4
  let main_cst_6 : FVec F S_ .f32 := constant S_ .f32 0x7F800000#32
  let main_v20 : FVec F S30 .f32 := broadcastInDim S30 ![] bcast_S_S30 main_cst_6
  let main_v21 : IVec S30 1 := cmpf .olt main_v19 main_v20
  let main_c_7 : IVec S_ 1 := constantI S_ 1 1#1
  let main_v22 : IVec S_ 1 := (fun x v => Host.reduce IntOp.andi x v reducesTo_S30_S_d0 h_S_) main_v21 main_c_7
  let main_v23 : IVec S_ 1 := andi main_v18 main_v22
  main_v23

def fn {F : FTy → Type} [FloatOps F] (main_arg0 : FVec F S2x1024x30 .f32) (main_arg1 : FVec F S60x64 .f32) (main_arg2 : FVec F S64 .f32) (main_arg3 : FVec F S64x30 .f32) (main_arg4 : FVec F S30 .f32) : IVec S_ 1 :=
  let main_v0 : FVec F S2x1024x30 .f32 := Host.absf main_arg0
  let main_cst : FVec F S_ .f32 := constant S_ .f32 0x7F800000#32
  let main_v1 : FVec F S2x1024x30 .f32 := broadcastInDim S2x1024x30 ![] bcast_S_S2x1024x30 main_cst
  let main_v2 : IVec S2x1024x30 1 := cmpf .olt main_v0 main_v1
  let main_c : IVec S_ 1 := constantI S_ 1 1#1
  let main_v3 : IVec S_ 1 := (fun x v => Host.reduce IntOp.andi x v reducesTo_S2x1024x30_S_d0_1_2 h_S_) main_v2 main_c
  let main_v4 : FVec F S60x64 .f32 := Host.absf main_arg1
  let main_cst_0 : FVec F S_ .f32 := constant S_ .f32 0x7F800000#32
  let main_v5 : FVec F S60x64 .f32 := broadcastInDim S60x64 ![] bcast_S_S60x64 main_cst_0
  let main_v6 : IVec S60x64 1 := cmpf .olt main_v4 main_v5
  let main_c_1 : IVec S_ 1 := constantI S_ 1 1#1
  let main_v7 : IVec S_ 1 := (fun x v => Host.reduce IntOp.andi x v reducesTo_S60x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x30 .f32 := Host.absf main_arg3
  let main_cst_4 : FVec F S_ .f32 := constant S_ .f32 0x7F800000#32
  let main_v15 : FVec F S64x30 .f32 := broadcastInDim S64x30 ![] bcast_S_S64x30 main_cst_4
  let main_v16 : IVec S64x30 1 := cmpf .olt main_v14 main_v15
  fn_part1 (F := F) main_arg4 main_v13 main_v16
-- ==== Kernel.lean ====
abbrev S2x1024x30 : Shape := ⟨3, ![2, 1024, 30]⟩
abbrev S60x64 : Shape := ⟨2, ![60, 64]⟩
abbrev S64 : Shape := ⟨1, ![64]⟩
abbrev S64x30 : Shape := ⟨2, ![64, 30]⟩
abbrev S30 : Shape := ⟨1, ![30]⟩
abbrev S30x64 : Shape := ⟨2, ![30, 64]⟩
abbrev S1x128x30 : Shape := ⟨3, ![1, 128, 30]⟩
abbrev S1x1024x30 : Shape := ⟨3, ![1, 1024, 30]⟩
abbrev S128x64 : Shape := ⟨2, ![128, 64]⟩
abbrev S128x30 : Shape := ⟨2, ![128, 30]⟩
abbrev S128x1x64 : Shape := ⟨3, ![128, 1, 64]⟩
abbrev S1x128x64 : Shape := ⟨3, ![1, 128, 64]⟩
abbrev S128x128x64 : Shape := ⟨3, ![128, 128, 64]⟩
abbrev S1x1x64 : Shape := ⟨3, ![1, 1, 64]⟩
abbrev S1x30 : Shape := ⟨2, ![1, 30]⟩

abbrev nBuf : Space → Nat
  | .hbm => 8
  | .vmem => 12
  | .smem => 0
  | _ => 0

abbrev bufTy : (tb : Table) → Fin (tcTables nBuf tb) → BufTy
  | .hbm, ⟨0, _⟩ => ⟨S2x1024x30, .f32⟩
  | .hbm, ⟨1, _⟩ => ⟨S60x64, .f32⟩
  | .hbm, ⟨2, _⟩ => ⟨S64, .f32⟩
  | .hbm, ⟨3, _⟩ => ⟨S64x30, .f32⟩
  | .hbm, ⟨4, _⟩ => ⟨S30, .f32⟩
  | .hbm, ⟨5, _⟩ => ⟨S30x64, .f32⟩
  | .hbm, ⟨6, _⟩ => ⟨S30x64, .f32⟩
  | .hbm, ⟨7, _⟩ => ⟨S2x1024x30, .f32⟩
  | .local _ .vmem, ⟨0, _⟩ => ⟨S1x128x30, .f32⟩
  | .local _ .vmem, ⟨1, _⟩ => ⟨S1x128x30, .f32⟩
  | .local _ .vmem, ⟨2, _⟩ => ⟨S1x1024x30, .f32⟩
  | .local _ .vmem, ⟨3, _⟩ => ⟨S1x1024x30, .f32⟩
  | .local _ .vmem, ⟨4, _⟩ => ⟨S30x64, .f32⟩
  | .local _ .vmem, ⟨5, _⟩ => ⟨S30x64, .f32⟩
  | .local _ .vmem, ⟨6, _⟩ => ⟨S64, .f32⟩
  | .local _ .vmem, ⟨7, _⟩ => ⟨S64x30, .f32⟩
  | .local _ .vmem, ⟨8, _⟩ => ⟨S30, .f32⟩
  | .local _ .vmem, ⟨9, _⟩ => ⟨S1x128x30, .f32⟩
  | .local _ .vmem, ⟨10, _⟩ => ⟨S1x128x30, .f32⟩
  | .local _ .vmem, ⟨11, _⟩ => ⟨S128x64, .f32⟩
  | _, _ => ⟨S2x1024x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32 : BitVec 32 := 0#32
  let c8_i32 : BitVec 32 := 8#32
  let v9 : BitVec 32 := Scalar.addi c0_i32 c8_i32
  let c1_i32 : BitVec 32 := 1#32
  ⟨c0_i32, v9, c1_i32⟩
def k0_mult1 (k0_t1 : Fin k0_t1_loop.trips) : BitVec 32 :=
  let c0_i32_19 : BitVec 32 := 0#32
  let c0_i32 : BitVec 32 := 0#32
  let c1_i32 : BitVec 32 := 1#32
  let arg11 : BitVec 32 := Scf.iv c0_i32 c1_i32 k0_t1
  let c1_i32_18 : BitVec 32 := 1#32
  let v22 : BitVec 32 := Scalar.muli arg11 c1_i32_18
  let v23 : BitVec 32 := Scalar.addi c0_i32_19 v22
  let c128_i32 : BitVec 32 := 128#32
  let v24 : BitVec 32 := Scalar.muli v23 c128_i32
  v24
def k0_off1 (k0_t1 : Fin k0_t1_loop.trips) : Fin 3 → Nat :=
  let c0_20 : Index := 0#32
  let c0_i32_19 : BitVec 32 := 0#32
  let c0_i32 : BitVec 32 := 0#32
  let c1_i32 : BitVec 32 := 1#32
  let arg11 : BitVec 32 := Scf.iv c0_i32 c1_i32 k0_t1
  let c1_i32_18 : BitVec 32 := 1#32
  let v22 : BitVec 32 := Scalar.muli arg11 c1_i32_18
  let v23 : BitVec 32 := Scalar.addi c0_i32_19 v22
  let c128_i32 : BitVec 32 := 128#32
  let v24 : BitVec 32 := Scalar.muli v23 c128_i32
  let v25 : BitVec 32 := v24
  let v26 : Index := Scalar.indexCast v25
  let c0_21 : Index := 0#32
  ![0, v26.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x30 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S30x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S30x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x30 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S30 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x128x30 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  slices_S60x64_S30x64_0_0 : S60x64.Slices ![0, 0] S30x64
  slices_S60x64_S30x64_30_0 : S60x64.Slices ![30, 0] S30x64
  inb_S1x128x30_S1x128x30_0_0_0 : ∀ a, (![0, 0, 0] : Fin 3 → Nat) a + S1x128x30.size a ≤ S1x128x30.size a
  h_S1x128x30 : 0 < S1x128x30.numel
  shapeCasts_S1x128x30_S128x30 : S1x128x30.ShapeCasts S128x30
  inb_S30x64_S30x64_0_0 : ∀ a, (![0, 0] : Fin 2 → Nat) a + S30x64.size a ≤ S30x64.size a
  h_S30x64 : 0 < S30x64.numel
  shapeCasts_S30x64_S30x64 : S30x64.ShapeCasts S30x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  shapeCasts_S128x64_S128x1x64 : S128x64.ShapeCasts S128x1x64
  shapeCasts_S128x64_S1x128x64 : S128x64.ShapeCasts S1x128x64
  broadcasts_S128x1x64_S128x128x64 : S128x1x64.Broadcasts S128x128x64
  broadcasts_S1x128x64_S128x128x64 : S1x128x64.Broadcasts S128x128x64
  inb_S64_S64_0 : ∀ a, (![0] : Fin 1 → Nat) a + S64.size a ≤ S64.size a
  h_S64 : 0 < S64.numel
  shapeCasts_S64_S1x1x64 : S64.ShapeCasts S1x1x64
  broadcasts_S1x1x64_S128x128x64 : S1x1x64.Broadcasts S128x128x64
  reduces_S128x128x64_S128x64 : S128x128x64.Reduces [1] S128x64
  inb_S64x30_S64x30_0_0 : ∀ a, (![0, 0] : Fin 2 → Nat) a + S64x30.size a ≤ S64x30.size a
  h_S64x30 : 0 < S64x30.numel
  inb_S30_S30_0 : ∀ a, (![0] : Fin 1 → Nat) a + S30.size a ≤ S30.size a
  h_S30 : 0 < S30.numel
  shapeCasts_S30_S1x30 : S30.ShapeCasts S1x30
  broadcasts_S1x30_S128x30 : S1x30.Broadcasts S128x30
  shapeCasts_S128x30_S1x128x30 : S128x30.ShapeCasts S1x128x30
  dot_S128x30_S30x64_S128x64_1_0_0_1_n_n_wf : DotDims.WF S128x30 S30x64 S128x64 [1] [0] [0] [1] [] []
  dot_S128x64_S64x30_S128x30_1_0_0_1_n_n_wf : DotDims.WF S128x64 S64x30 S128x30 [1] [0] [0] [1] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S1x128x30.size a ≤ S1x1024x30.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x30.size a ≤ S2x1024x30.size a
  hwx0_0 : ∀ i : grid0.Coords, EltTy.bits .f32 = 32 ∨ (Rect.block (s := S2x1024x30) S1x128x30.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x30.size a ≤ S2x1024x30.size a
  hwx0_1 : ∀ i : grid0.Coords, EltTy.bits .f32 = 32 ∨ (Rect.block (s := S2x1024x30) S1x1024x30.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S30x64.size a ≤ S30x64.size a
  hwx0_2 : ∀ i : grid0.Coords, EltTy.bits .f32 = 32 ∨ (Rect.block (s := S30x64) S30x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S30x64.size a ≤ S30x64.size a
  hwx0_3 : ∀ i : grid0.Coords, EltTy.bits .f32 = 32 ∨ (Rect.block (s := S30x64) S30x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x30.size a ≤ S64x30.size a
  hwx0_5 : ∀ i : grid0.Coords, EltTy.bits .f32 = 32 ∨ (Rect.block (s := S64x30) S64x30.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S30.size a ≤ S30.size a
  hwx0_6 : ∀ i : grid0.Coords, EltTy.bits .f32 = 32 ∨ (Rect.block (s := S30) S30.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128x30.size a ≤ S2x1024x30.size a
  hwx0_7 : ∀ i : grid0.Coords, EltTy.bits .f32 = 32 ∨ (Rect.block (s := S2x1024x30) S1x128x30.size (cc0_transform_7 i) (hinb0_7 i)).WholeWords (EltTy.packing .f32)

variable [Facts₀]

def dot_S128x30_S30x64_S128x64_1_0_0_1_n_n : DotDims S128x30 S30x64 S128x64 where
  lhsContracting := [1]
  rhsContracting := [0]
  lhsNonContracting := [0]
  rhsNonContracting := [1]
  lhsBatch := []
  rhsBatch := []
  wf := dot_S128x30_S30x64_S128x64_1_0_0_1_n_n_wf
def dot_S128x64_S64x30_S128x30_1_0_0_1_n_n : DotDims S128x64 S64x30 S128x30 where
  lhsContracting := [1]
  rhsContracting := [0]
  lhsNonContracting := [0]
  rhsNonContracting := [1]
  lhsBatch := []
  rhsBatch := []
  wf := dot_S128x64_S64x30_S128x30_1_0_0_1_n_n_wf

abbrev win0_0 : Pipeline.Window sig grid0 :=
  Pipeline.Window.ofSpec (Memref.whole main_arg0) S1x128x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x30.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S30x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S30x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S64x30.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S30.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x128x30.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2x1024x30 : Shape := ⟨3, ![2, 1024, 30]⟩
abbrev S60x64 : Shape := ⟨2, ![60, 64]⟩
abbrev S64 : Shape := ⟨1, ![64]⟩
abbrev S64x30 : Shape := ⟨2, ![64, 30]⟩
abbrev S30 : Shape := ⟨1, ![30]⟩
abbrev S30x64 : Shape := ⟨2, ![30, 64]⟩
abbrev S2x1024x64 : Shape := ⟨3, ![2, 1024, 64]⟩
abbrev S2x1024x1x64 : Shape := ⟨4, ![2, 1024, 1, 64]⟩
abbrev S2x1x1024x64 : Shape := ⟨4, ![2, 1, 1024, 64]⟩
abbrev S2x1024x1024x64 : Shape := ⟨4, ![2, 1024, 1024, 64]⟩
abbrev S1x1x1x64 : Shape := ⟨4, ![1, 1, 1, 64]⟩
abbrev S_ : Shape := ⟨0, ![]⟩
abbrev S1x1x30 : Shape := ⟨3, ![1, 1, 30]⟩

abbrev nBuf : Space → Nat
  | .hbm => 29
  | .vmem => 0
  | .smem => 0
  | _ => 0

abbrev bufTy : (tb : Table) → Fin (tcTables nBuf tb) → BufTy
  | .hbm, ⟨0, _⟩ => ⟨S2x1024x30, .f32⟩
  | .hbm, ⟨1, _⟩ => ⟨S60x64, .f32⟩
  | .hbm, ⟨2, _⟩ => ⟨S64, .f32⟩
  | .hbm, ⟨3, _⟩ => ⟨S64x30, .f32⟩
  | .hbm, ⟨4, _⟩ => ⟨S30, .f32⟩
  | .hbm, ⟨5, _⟩ => ⟨S30x64, .f32⟩
  | .hbm, ⟨6, _⟩ => ⟨S2x1024x64, .f32⟩
  | .hbm, ⟨7, _⟩ => ⟨S30x64, .f32⟩
  | .hbm, ⟨8, _⟩ => ⟨S2x1024x64, .f32⟩
  | .hbm, ⟨9, _⟩ => ⟨S2x1024x1x64, .f32⟩
  | .hbm, ⟨10, _⟩ => ⟨S2x1x1024x64, .f32⟩
  | .hbm, ⟨11, _⟩ => ⟨S2x1024x1024x64, .f32⟩
  | .hbm, ⟨12, _⟩ => ⟨S2x1024x1024x64, .f32⟩
  | .hbm, ⟨13, _⟩ => ⟨S2x1024x1024x64, .f32⟩
  | .hbm, ⟨14, _⟩ => ⟨S1x1x1x64, .f32⟩
  | .hbm, ⟨15, _⟩ => ⟨S2x1024x1024x64, .f32⟩
  | .hbm, ⟨16, _⟩ => ⟨S2x1024x1024x64, .f32⟩
  | .hbm, ⟨17, _⟩ => ⟨S_, .f32⟩
  | .hbm, ⟨18, _⟩ => ⟨S2x1024x1024x64, .f32⟩
  | .hbm, ⟨19, _⟩ => ⟨S2x1024x1024x64, .f32⟩
  | .hbm, ⟨20, _⟩ => ⟨S_, .f32⟩
  | .hbm, ⟨21, _⟩ => ⟨S2x1024x64, .f32⟩
  | .hbm, ⟨22, _⟩ => ⟨S2x1024x30, .f32⟩
  | .hbm, ⟨23, _⟩ => ⟨S1x1x30, .f32⟩
  | .hbm, ⟨24, _⟩ => ⟨S2x1024x30, .f32⟩
  | .hbm, ⟨25, _⟩ => ⟨S2x1024x30, .f32⟩
  | .hbm, ⟨26, _⟩ => ⟨S_, .f32⟩
  | .hbm, ⟨27, _⟩ => ⟨S2x1024x30, .f32⟩
  | .hbm, ⟨28, _⟩ => ⟨S2x1024x30, .f32⟩
  | _, _ => ⟨S2x1024x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_cst : Ref sig .tc := ⟨.hbm, 17, rfl⟩
abbrev main_call0_v0 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call1_cst : Ref sig .tc := ⟨.hbm, 26, rfl⟩
abbrev main_call1_v0 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  slices_S60x64_S30x64_0_0 : S60x64.Slices ![0, 0] S30x64
  slices_S60x64_S30x64_30_0 : S60x64.Slices ![30, 0] S30x64
  bcast_S2x1024x64_S2x1024x1x64_0_1_3 : S2x1024x64.BroadcastsInDim S2x1024x1x64 (![0, 1, 3] : Fin 3 → Fin S2x1024x1x64.rank)
  bcast_S2x1024x64_S2x1x1024x64_0_2_3 : S2x1024x64.BroadcastsInDim S2x1x1024x64 (![0, 2, 3] : Fin 3 → Fin S2x1x1024x64.rank)
  bcast_S2x1024x1x64_S2x1024x1024x64_0_1_2_3 : S2x1024x1x64.BroadcastsInDim S2x1024x1024x64 (![0, 1, 2, 3] : Fin 4 → Fin S2x1024x1024x64.rank)
  bcast_S2x1x1024x64_S2x1024x1024x64_0_1_2_3 : S2x1x1024x64.BroadcastsInDim S2x1024x1024x64 (![0, 1, 2, 3] : Fin 4 → Fin S2x1024x1024x64.rank)
  bcast_S64_S1x1x1x64_3 : S64.BroadcastsInDim S1x1x1x64 (![3] : Fin 1 → Fin S1x1x1x64.rank)
  bcast_S1x1x1x64_S2x1024x1024x64_0_1_2_3 : S1x1x1x64.BroadcastsInDim S2x1024x1024x64 (![0, 1, 2, 3] : Fin 4 → Fin S2x1024x1024x64.rank)
  bcast_S_S2x1024x1024x64 : S_.BroadcastsInDim S2x1024x1024x64 (![] : Fin 0 → Fin S2x1024x1024x64.rank)
  reducesTo_S2x1024x1024x64_S2x1024x64_d2 : S2x1024x1024x64.ReducesTo [2] S2x1024x64
  h_S_ : 0 < S_.numel
  bcast_S30_S1x1x30_2 : S30.BroadcastsInDim S1x1x30 (![2] : Fin 1 → Fin S1x1x30.rank)
  bcast_S1x1x30_S2x1024x30_0_1_2 : S1x1x30.BroadcastsInDim S2x1024x30 (![0, 1, 2] : Fin 3 → Fin S2x1024x30.rank)
  bcast_S_S2x1024x30 : S_.BroadcastsInDim S2x1024x30 (![] : Fin 0 → Fin S2x1024x30.rank)
  dot_S2x1024x30_S30x64_S2x1024x64_2_0_01_1_n_n_wf : DotDims.WF S2x1024x30 S30x64 S2x1024x64 [2] [0] [0, 1] [1] [] []
  dot_S2x1024x64_S64x30_S2x1024x30_2_0_01_1_n_n_wf : DotDims.WF S2x1024x64 S64x30 S2x1024x30 [2] [0] [0, 1] [1] [] []

variable [Facts₀]

def dot_S2x1024x30_S30x64_S2x1024x64_2_0_01_1_n_n : DotDims S2x1024x30 S30x64 S2x1024x64 where
  lhsContracting := [2]
  rhsContracting := [0]
  lhsNonContracting := [0, 1]
  rhsNonContracting := [1]
  lhsBatch := []
  rhsBatch := []
  wf := dot_S2x1024x30_S30x64_S2x1024x64_2_0_01_1_n_n_wf
def dot_S2x1024x64_S64x30_S2x1024x30_2_0_01_1_n_n : DotDims S2x1024x64 S64x30 S2x1024x30 where
  lhsContracting := [2]
  rhsContracting := [0]
  lhsNonContracting := [0, 1]
  rhsNonContracting := [1]
  lhsBatch := []
  rhsBatch := []
  wf := dot_S2x1024x64_S64x30_S2x1024x30_2_0_01_1_n_n_wf

class Facts : Prop extends Facts₀ where

variable [Facts]
-- ==== Proof.K.Kit.lean ====
/-
  The launch side of `Kernel`'s frame, for every float instance.

  @main slices the first linear map into its two halves (two host operations that write fresh arrays and touch no
  argument) and then runs ONE pipelined region over the grid (batch, row tile). The region's eight windows: the row
  tile of the points, the whole batch of points (both over the SAME argument array), the two halves of the first
  map, its bias, the second map, its bias, and the result's row tile.

  Here: the arrays as the region finds them (`V`), that every argument is among them unchanged, each window's block
  at a grid point (`iblk`), and that an input window's current staging buffer holds exactly that block at every
  point, whether the pipeline fetched it there or kept it from the point before.
-/
import proofs.«129004_j12884901888249_1_alg».proof.Proof.Gen.Kernel.Launch
import proofs.«129004_j12884901888249_1_alg».proof.Proof.Gen.Kernel.Skeleton
import proofs.«129004_j12884901888249_1_alg».proof.Proof.Gen.Kernel.Loops
import proofs.«129004_j12884901888249_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s arrays when the region is entered: the launch contents after the two slices. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the two slices, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither slice writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    repeat' apply And.intro
    all_goals exact StableHlo.devRef_ne_of_ne (by decide)))
/-- Neither slice writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    repeat' apply And.intro
    all_goals exact StableHlo.devRef_ne_of_ne (by decide)))
/-- Neither slice writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    repeat' apply And.intro
    all_goals exact StableHlo.devRef_ne_of_ne (by decide)))
/-- Neither slice writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, Finset.mem_singleton]
    repeat' apply And.intro
    all_goals exact StableHlo.devRef_ne_of_ne (by decide)))
/-- Neither slice writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window whose body leaves its block in place holds its block at every point: where the pipeline does
    not fetch, the block index has not moved since the point before. One statement per input window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs the body is called with -/

abbrev ms0 (t : Fin cfg0.N) : Memref sig .tc .vmem S1x128x30 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x30 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S30x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S30x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S64x30 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S30 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x128x30 .f32 := win0_7.stage (cfg0.slots t 7)
abbrev hs7 (t : Fin cfg0.N) : (ms7 t).IsWhole := hstage0_7 ((cfg0.slots t 7).cast nbuf0_7)

/-- The accumulator the body keeps within a point. -/
abbrev acM : Memref sig .tc .vmem S128x64 .f32 := Memref.whole cc0_scratch0
/-- One staging buffer of the result window, through which its contents are stated. -/
abbrev VO : View sig .tc .vmem S1x128x30 .f32 := (Memref.whole cc0_stg7_0 : Memref sig .tc .vmem S1x128x30 .f32).view
/-- The accumulator as a view. -/
abbrev VA : View sig .tc .vmem S128x64 .f32 := acM.view

/-- The region's invariant: the accumulator, at any contents. -/
theorem scopedRest_acc (c : Dev nD) :
    (Pipeline.scopedRest (Ix := Unit) (Name := ℕ) (U := UR sig nD τ) (Lvl := ℕ) (Val := Elt F) spec0 c : sProp 𝕄)
      = iprop(∃ d, owns (c : Thread nD τ) acM fullShare d) := by
  rw [scopedRest0_eq]; simp only [acM, owns_whole]; try rfl

end Cert.Kernel.Hand

end
-- ==== Proof.K.Run.lean ====
/-
  One grid point of `Kernel`'s kernel, run symbolically on arbitrary whole staging memrefs.

  The body reads seven inputs (the row tile, the batch of points, the two halves of the first map, its bias, the
  second map, its bias), zeroes an accumulator, adds to it eight times inside a counted loop (one chunk of 128
  partner rows per trip) and stores the result tile. The inputs come back as they were; the result buffer comes back
  with the body's stores written over whatever it held; the accumulator comes back at some contents. The list of
  pieces stored into the result buffer is the witness the run finds.
-/
import proofs.«129004_j12884901888249_1_alg».proof.Proof.K.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the result window's staging memref (last first), with the proof that on
    whole memrefs — the inputs at read contents `x0 … x6`, the result buffer and the accumulator at anything — the
    body runs to the continuation holding the inputs as they were, the result buffer with those pieces written, and
    the accumulator at some contents. -/
noncomputable def kernelRun (c : Dev nD) (i : grid0.Coords) (arg2 : Memref sig .tc .vmem S1x128x30 .f32) (harg2 : arg2.IsWhole) (arg3 : Memref sig .tc .vmem S1x1024x30 .f32) (harg3 : arg3.IsWhole) (arg4 : Memref sig .tc .vmem S30x64 .f32) (harg4 : arg4.IsWhole) (arg5 : Memref sig .tc .vmem S30x64 .f32) (harg5 : arg5.IsWhole) (arg6 : Memref sig .tc .vmem S64 .f32) (harg6 : arg6.IsWhole) (arg7 : Memref sig .tc .vmem S64x30 .f32) (harg7 : arg7.IsWhole) (arg8 : Memref sig .tc .vmem S30 .f32) (harg8 : arg8.IsWhole) (arg9 : Memref sig .tc .vmem S1x128x30 .f32) (harg9 : arg9.IsWhole) (arg10 : Memref sig .tc .vmem S128x64 .f32) (harg10 : arg10.IsWhole)
    (x0 : Vec F S1x128x30 .f32) (x1 : Vec F S1x1024x30 .f32) (x2 : Vec F S30x64 .f32) (x3 : Vec F S30x64 .f32) (x4 : Vec F S64 .f32) (x5 : Vec F S64x30 .f32) (x6 : Vec F S30 .f32) :
    { L : List (View.Piece (Elt F) S1x128x30 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ owns (c : Thread nD τ) arg7 fullShare x5 ∗ owns (c : Thread nD τ) arg8 fullShare x6
            ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare x4 ∗ owns (c : Thread nD τ) arg7 fullShare x5 ∗ owns (c : Thread nD τ) arg8 fullShare x6
                ∗ (∃ f, arg9.view.loc (c : Thread nD τ) ↦[arg9.view.set]{fullShare} arg9.view.writes (Elt F) f L)
                ∗ (∃ g, arg10.view.loc (c : Thread nD τ) ↦[arg10.view.set]{fullShare} g)) -∗ K ⟨⟩))
          ⊢ wp frame (wpE (defs₀ (F := F)) Variants.none c none) E (cc0__gnn_kernel i arg2 harg2 arg3 harg3 arg4 harg4 arg5 harg5 arg6 harg6 arg7 harg7 arg8 harg8 arg9 harg9 arg10 harg10) K } := by
  refine ⟨?_, fun E K => ?run⟩
  case run =>
    simp only [cc0__gnn_kernel_eq_skeleton]; unfold cc0__gnn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexact H7
    iexists _; iexact H8

end Cert.Kernel.Hand

end
-- ==== Proof.K.Frame.lean ====
/-
  `Kernel`'s run from launch to return, for every float instance: every weakly fair execution terminates without a
  fault, the result array ends at what the pipeline's write-backs make of the body's result tiles, and every
  argument array ends as launched.

  The points `z` reach the kernel through TWO windows (the row tile and the whole batch), so the array's full share
  is dealt to the two windows in halves; both only read it. The accumulator carries nothing from one grid point to
  the next (the body zeroes it first), so the region's invariant is just that buffer at some contents.
-/
import proofs.«129004_j12884901888249_1_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in the result window -/

/-- The body's stores into the result buffer cover it (one store of the whole tile). -/
theorem cover (c : Dev nD) (i : grid0.Coords) (arg2 : Memref sig .tc .vmem S1x128x30 .f32) (harg2 : arg2.IsWhole) (arg3 : Memref sig .tc .vmem S1x1024x30 .f32) (harg3 : arg3.IsWhole) (arg4 : Memref sig .tc .vmem S30x64 .f32) (harg4 : arg4.IsWhole) (arg5 : Memref sig .tc .vmem S30x64 .f32) (harg5 : arg5.IsWhole) (arg6 : Memref sig .tc .vmem S64 .f32) (harg6 : arg6.IsWhole) (arg7 : Memref sig .tc .vmem S64x30 .f32) (harg7 : arg7.IsWhole) (arg8 : Memref sig .tc .vmem S30 .f32) (harg8 : arg8.IsWhole) (arg9 : Memref sig .tc .vmem S1x128x30 .f32) (harg9 : arg9.IsWhole) (arg10 : Memref sig .tc .vmem S128x64 .f32) (harg10 : arg10.IsWhole)
    (x0 : Vec F S1x128x30 .f32) (x1 : Vec F S1x1024x30 .f32) (x2 : Vec F S30x64 .f32) (x3 : Vec F S30x64 .f32) (x4 : Vec F S64 .f32) (x5 : Vec F S64x30 .f32) (x6 : Vec F S30 .f32) (y : S1x128x30.Idx) :
    ∃ pc ∈ (kernelRun c i arg2 harg2 arg3 harg3 arg4 harg4 arg5 harg5 arg6 harg6 arg7 harg7 arg8 harg8 arg9 harg9 arg10 harg10 x0 x1 x2 x3 x4 x5 x6).1, y ∈ pc.1.set :=
  View.cover_of_tiledL (kernelRun c i arg2 harg2 arg3 harg3 arg4 harg4 arg5 harg5 arg6 harg6 arg7 harg7 arg8 harg8 arg9 harg9 arg10 harg10 x0 x1 x2 x3 x4 x5 x6).1 S1x128x30.size (by sl_kernel_rfl) y

/-- What the run leaves in the result window's staging buffer: its pieces read back over junk. -/
def outTile (c : Dev nD) (i : grid0.Coords) (arg2 : Memref sig .tc .vmem S1x128x30 .f32) (harg2 : arg2.IsWhole) (arg3 : Memref sig .tc .vmem S1x1024x30 .f32) (harg3 : arg3.IsWhole) (arg4 : Memref sig .tc .vmem S30x64 .f32) (harg4 : arg4.IsWhole) (arg5 : Memref sig .tc .vmem S30x64 .f32) (harg5 : arg5.IsWhole) (arg6 : Memref sig .tc .vmem S64 .f32) (harg6 : arg6.IsWhole) (arg7 : Memref sig .tc .vmem S64x30 .f32) (harg7 : arg7.IsWhole) (arg8 : Memref sig .tc .vmem S30 .f32) (harg8 : arg8.IsWhole) (arg9 : Memref sig .tc .vmem S1x128x30 .f32) (harg9 : arg9.IsWhole) (arg10 : Memref sig .tc .vmem S128x64 .f32) (harg10 : arg10.IsWhole)
    (x0 : Vec F S1x128x30 .f32) (x1 : Vec F S1x1024x30 .f32) (x2 : Vec F S30x64 .f32) (x3 : Vec F S30x64 .f32) (x4 : Vec F S64 .f32) (x5 : Vec F S64x30 .f32) (x6 : Vec F S30 .f32) : Vec F S1x128x30 .f32 :=
  VO.read (Elt F) (VO.writes (Elt F) VO.junk (kernelRun c i arg2 harg2 arg3 harg3 arg4 harg4 arg5 harg5 arg6 harg6 arg7 harg7 arg8 harg8 arg9 harg9 arg10 harg10 x0 x1 x2 x3 x4 x5 x6).1)

/-- The result tile after the body at point `t`: the run at the point's memrefs and input blocks. -/
def outAt (c : Dev nD) (t : Fin cfg0.N) : Vec F S1x128x30 .f32 :=
  outTile c (grid0.coords t) (ms0 t) (hs0 t) (ms1 t) (hs1 t) (ms2 t) (hs2 t) (ms3 t) (hs3 t) (ms4 t) (hs4 t) (ms5 t) (hs5 t) (ms6 t) (hs6 t) (ms7 t) (hs7 t) acM (Memref.isWhole_whole _) (iblk m c 0 t) (iblk m c 1 t) (iblk m c 2 t) (iblk m c 3 t) (iblk m c 4 t) (iblk m c 5 t) (iblk m c 6 t)

/-! ## The pipeline's proof data -/

/-- The arrays as the region finds them; after the body each input window at its block and the result window at
    `outAt`; the invariant the accumulator at any contents; nothing owed; the points' array shared in halves between
    its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t))

set_option maxHeartbeats 4000000 in
/-- The body at any point: the inputs' memrefs hold their blocks, so the run applies; the accumulator passes in at
    anything and out at anything; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  rw [show (dats m 0 c).Φ t.castSucc = Pipeline.scopedRest spec0 c from rfl, scopedRest_acc]
  unfold outAt
  unfold outTile
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun c (grid0.coords t) _ _ _ _ _ _ _ _ _ _ _ _ _ _ _ _ _ _ (iblk m c 0 t) (iblk m c 1 t) (iblk m c 2 t) (iblk m c 3 t) (iblk m c 4 t) (iblk m c 5 t) (iblk m c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HΦ]; · iexact HΦ
  iintro ⟨H0, H1, H2, H3, H4, H5, H6, ⟨%e7, H7⟩, ⟨%g, HA⟩⟩
  isplitl [HA]
  · unfold owns; iexists _, g; isplitr; · ipureintro; rfl
    iexact HA
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover c _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Whole.lean ====
/-
  `Kernel` from launch to return: the launch deals the region its arrays, the two windows on the points' array each
  take half of that array's share, the slices' source array (which no window stages) bypasses the region, and at
  the end every array is read back.
-/
import proofs.«129004_j12884901888249_1_alg».proof.Proof.K.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays, each whole at the full share, are the windows' arrays at their shares:
    the points' array is split in halves between its two windows; every other array belongs to one window. -/
theorem hsplit (c : Dev nD) :
    (Pipeline.arrBufs spec0 c (V m c) : sProp 𝕄) ⊢ (dats m 0 c).arrays ((dats m 0 c).arrAt · 0) := by
  have hset : ∀ w : Fin cfg0.W, (cfg0.win w).arr.view.set = Finset.univ := fun w => (arr_whole0 w).set_eq_univ
  unfold Pipeline.arrBufs Dat.arrays
  rw [bigSep_eq_bigSepL_of_eq [main_arg0, main_v0, main_v1, main_arg2, main_arg3, main_arg4, main_v2] (by decide) (by decide), bigSep_W0]
  rw [show (bigSepL [main_arg0, main_v0, main_v1, main_arg2, main_arg3, main_arg4, main_v2] fun b => (((c.tc : Thread nD τ).loc b) ↦{fullShare} V m c b : sProp 𝕄))
      = iprop((((c.tc : Thread nD τ).loc main_arg0) ↦{fullShare} V m c main_arg0) ∗ (((c.tc : Thread nD τ).loc main_v0) ↦{fullShare} V m c main_v0)
          ∗ (((c.tc : Thread nD τ).loc main_v1) ↦{fullShare} V m c main_v1) ∗ (((c.tc : Thread nD τ).loc main_arg2) ↦{fullShare} V m c main_arg2)
          ∗ (((c.tc : Thread nD τ).loc main_arg3) ↦{fullShare} V m c main_arg3) ∗ (((c.tc : Thread nD τ).loc main_arg4) ↦{fullShare} V m c main_arg4)
          ∗ (((c.tc : Thread nD τ).loc main_v2) ↦{fullShare} V m c main_v2)) from rfl]
  have hA : ∀ w : Fin 8, (dats m 0 c).arrAt w 0 = V m c (Pipeline.arrRef spec0 w) := fun w => A_eq m c w
  have hq0 : (dats m 0 c).share (0 : Fin 8) = fullShare.left := by unfold Dat.share; rw [if_neg (by decide)]; rfl
  have hq1 : (dats m 0 c).share (1 : Fin 8) = fullShare.right := by unfold Dat.share; rw [if_neg (by decide)]; rfl
  have hq2 : (dats m 0 c).share (2 : Fin 8) = fullShare := by unfold Dat.share; rw [if_neg (by decide)]; rfl
  have hq3 : (dats m 0 c).share (3 : Fin 8) = fullShare := by unfold Dat.share; rw [if_neg (by decide)]; rfl
  have hq4 : (dats m 0 c).share (4 : Fin 8) = fullShare := by unfold Dat.share; rw [if_neg (by decide)]; rfl
  have hq5 : (dats m 0 c).share (5 : Fin 8) = fullShare := by unfold Dat.share; rw [if_neg (by decide)]; rfl
  have hq6 : (dats m 0 c).share (6 : Fin 8) = fullShare := by unfold Dat.share; rw [if_neg (by decide)]; rfl
  have hq7 : (dats m 0 c).share (7 : Fin 8) = fullShare := by unfold Dat.share; rw [if_pos (by decide)]
  simp only [hset, View.set_whole, hA, hq0, hq1, hq2, hq3, hq4, hq5, hq6, hq7]
  iintro ⟨H0, Hv0, Hv1, H2, H3, H4, Hv2⟩
  ihave H0' := (pointsTo_share (PosShare.mem_left_op_right fullShare)).1 $$ H0
  icases H0' with ⟨H0l, H0r⟩
  isplitl [H0l]; · iexact H0l
  isplitl [H0r]; · iexact H0r
  isplitl [Hv0]; · iexact Hv0
  isplitl [Hv1]; · iexact Hv1
  isplitl [H2]; · iexact H2
  isplitl [H3]; · iexact H3
  isplitl [H4]; · iexact H4
  iexact Hv2

set_option backward.isDefEq.respectTransparency.types false in
/-- At the compiled mesh, for any values, from any memory with zero counters: every weakly fair execution of @main
    terminates without a fault, with the result array at what the write-backs of the body's tiles make of it and every
    argument array as launched. -/
theorem run_main : θ_run defs (onTc (τ := τ) (main (F := F))) ⟨m, fun _ => 0, ρ⟩ (fun r => ∀ c : Dev nD,
      r.2.mem ((c.tc : Thread nD τ).loc main_v2) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj))
    (hu₀ := .rfl)
    (V := V m) (hmain := hmain m Variants.none)
    (hsplit := hsplit m)
    (X := fun _ => iprop(emp)) (Y := fun _ => iprop(emp))
    (Z := fun c => Pipeline.unscopedRest spec0 c (V m c))
    (hX := fun c => by
      iintro H; isplitr; · iempintro
      iexact H)
    (hin := fun c => by
      rw [show (dats m 0 c).Φ 0 = Pipeline.scopedRest spec0 c from rfl]
      iintro ⟨-, H⟩; iexact H)
    (hout := fun c => by
      rw [show (dats m 0 c).Φ (Fin.last cfg0.N) = Pipeline.scopedRest spec0 c from rfl]
      iintro H; isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c =>
      ⟨(h c).1 7,
       ((h c).1 0).trans (((dats m 0 c).arrAt_in 0 rfl _).trans ((A_eq m c 0).trans (V_main_arg0 m c))),
       ((h c).2 main_arg1 (Pipeline.mem_restRefs_of main_arg1 (by decide) (by decide))).trans (V_main_arg1 m c),
       ((h c).1 4).trans (((dats m 0 c).arrAt_in 4 rfl _).trans ((A_eq m c 4).trans (V_main_arg2 m c))),
       ((h c).1 5).trans (((dats m 0 c).arrAt_in 5 rfl _).trans ((A_eq m c 5).trans (V_main_arg3 m c))),
       ((h c).1 6).trans (((dats m 0 c).arrAt_in 6 rfl _).trans ((A_eq m c 6).trans (V_main_arg4 m c)))⟩)

/-- info: 'Cert.Kernel.Hand.run_main' depends on axioms: [propext, Classical.choice, Quot.sound] -/
#guard_msgs in #print axioms run_main

/-- The frame: termination, no fault, the argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_main m ρ)

end Cert.Kernel.Hand

end
-- ==== Proof.KI.Kit.lean ====
/-
  The launch side of `KernelIdeal`'s frame, for every float instance.

  @main slices the first linear map into its two halves (two host operations that write fresh arrays and touch no
  argument) and then runs ONE pipelined region over the grid (batch, row tile). The region's eight windows: the row
  tile of the points, the whole batch of points (both over the SAME argument array), the two halves of the first
  map, its bias, the second map, its bias, and the result's row tile.

  Here: the arrays as the region finds them (`V`), that every argument is among them unchanged, each window's block
  at a grid point (`iblk`), and that an input window's current staging buffer holds exactly that block at every
  point, whether the pipeline fetched it there or kept it from the point before.
-/
import proofs.«129004_j12884901888249_1_alg».proof.Proof.Gen.KernelIdeal.Launch
import proofs.«129004_j12884901888249_1_alg».proof.Proof.Gen.KernelIdeal.Skeleton
import proofs.«129004_j12884901888249_1_alg».proof.Proof.Gen.KernelIdeal.Loops
import proofs.«129004_j12884901888249_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s arrays when the region is entered: the launch contents after the two slices. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the two slices, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither slice writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    repeat' apply And.intro
    all_goals exact StableHlo.devRef_ne_of_ne (by decide)))
/-- Neither slice writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    repeat' apply And.intro
    all_goals exact StableHlo.devRef_ne_of_ne (by decide)))
/-- Neither slice writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    repeat' apply And.intro
    all_goals exact StableHlo.devRef_ne_of_ne (by decide)))
/-- Neither slice writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, Finset.mem_singleton]
    repeat' apply And.intro
    all_goals exact StableHlo.devRef_ne_of_ne (by decide)))
/-- Neither slice writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window whose body leaves its block in place holds its block at every point: where the pipeline does
    not fetch, the block index has not moved since the point before. One statement per input window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs the body is called with -/

abbrev ms0 (t : Fin cfg0.N) : Memref sig .tc .vmem S1x128x30 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x30 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S30x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S30x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S64x30 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S30 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x128x30 .f32 := win0_7.stage (cfg0.slots t 7)
abbrev hs7 (t : Fin cfg0.N) : (ms7 t).IsWhole := hstage0_7 ((cfg0.slots t 7).cast nbuf0_7)

/-- The accumulator the body keeps within a point. -/
abbrev acM : Memref sig .tc .vmem S128x64 .f32 := Memref.whole cc0_scratch0
/-- One staging buffer of the result window, through which its contents are stated. -/
abbrev VO : View sig .tc .vmem S1x128x30 .f32 := (Memref.whole cc0_stg7_0 : Memref sig .tc .vmem S1x128x30 .f32).view
/-- The accumulator as a view. -/
abbrev VA : View sig .tc .vmem S128x64 .f32 := acM.view

/-- The region's invariant: the accumulator, at any contents. -/
theorem scopedRest_acc (c : Dev nD) :
    (Pipeline.scopedRest (Ix := Unit) (Name := ℕ) (U := UR sig nD τ) (Lvl := ℕ) (Val := Elt F) spec0 c : sProp 𝕄)
      = iprop(∃ d, owns (c : Thread nD τ) acM fullShare d) := by
  rw [scopedRest0_eq]; simp only [acM, owns_whole]; try rfl

end Cert.KernelIdeal.Hand

end
-- ==== Proof.KI.Run.lean ====
/-
  One grid point of `KernelIdeal`'s kernel, run symbolically on arbitrary whole staging memrefs.

  The body reads seven inputs (the row tile, the batch of points, the two halves of the first map, its bias, the
  second map, its bias), zeroes an accumulator, adds to it eight times inside a counted loop (one chunk of 128
  partner rows per trip) and stores the result tile. The inputs come back as they were; the result buffer comes back
  with the body's stores written over whatever it held; the accumulator comes back at some contents. The list of
  pieces stored into the result buffer is the witness the run finds.
-/
import proofs.«129004_j12884901888249_1_alg».proof.Proof.KI.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the result window's staging memref (last first), with the proof that on
    whole memrefs — the inputs at read contents `x0 … x6`, the result buffer and the accumulator at anything — the
    body runs to the continuation holding the inputs as they were, the result buffer with those pieces written, and
    the accumulator at some contents. -/
noncomputable def kernelRun (c : Dev nD) (i : grid0.Coords) (arg2 : Memref sig .tc .vmem S1x128x30 .f32) (harg2 : arg2.IsWhole) (arg3 : Memref sig .tc .vmem S1x1024x30 .f32) (harg3 : arg3.IsWhole) (arg4 : Memref sig .tc .vmem S30x64 .f32) (harg4 : arg4.IsWhole) (arg5 : Memref sig .tc .vmem S30x64 .f32) (harg5 : arg5.IsWhole) (arg6 : Memref sig .tc .vmem S64 .f32) (harg6 : arg6.IsWhole) (arg7 : Memref sig .tc .vmem S64x30 .f32) (harg7 : arg7.IsWhole) (arg8 : Memref sig .tc .vmem S30 .f32) (harg8 : arg8.IsWhole) (arg9 : Memref sig .tc .vmem S1x128x30 .f32) (harg9 : arg9.IsWhole) (arg10 : Memref sig .tc .vmem S128x64 .f32) (harg10 : arg10.IsWhole)
    (x0 : Vec F S1x128x30 .f32) (x1 : Vec F S1x1024x30 .f32) (x2 : Vec F S30x64 .f32) (x3 : Vec F S30x64 .f32) (x4 : Vec F S64 .f32) (x5 : Vec F S64x30 .f32) (x6 : Vec F S30 .f32) :
    { L : List (View.Piece (Elt F) S1x128x30 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ owns (c : Thread nD τ) arg7 fullShare x5 ∗ owns (c : Thread nD τ) arg8 fullShare x6
            ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare x4 ∗ owns (c : Thread nD τ) arg7 fullShare x5 ∗ owns (c : Thread nD τ) arg8 fullShare x6
                ∗ (∃ f, arg9.view.loc (c : Thread nD τ) ↦[arg9.view.set]{fullShare} arg9.view.writes (Elt F) f L)
                ∗ (∃ g, arg10.view.loc (c : Thread nD τ) ↦[arg10.view.set]{fullShare} g)) -∗ K ⟨⟩))
          ⊢ wp frame (wpE (defs₀ (F := F)) Variants.none c none) E (cc0__gnn_kernel i arg2 harg2 arg3 harg3 arg4 harg4 arg5 harg5 arg6 harg6 arg7 harg7 arg8 harg8 arg9 harg9 arg10 harg10) K } := by
  refine ⟨?_, fun E K => ?run⟩
  case run =>
    simp only [cc0__gnn_kernel_eq_skeleton]; unfold cc0__gnn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexact H7
    iexists _; iexact H8

end Cert.KernelIdeal.Hand

end
-- ==== Proof.KI.Frame.lean ====
/-
  `KernelIdeal`'s run from launch to return, for every float instance: every weakly fair execution terminates without a
  fault, the result array ends at what the pipeline's write-backs make of the body's result tiles, and every
  argument array ends as launched.

  The points `z` reach the kernel through TWO windows (the row tile and the whole batch), so the array's full share
  is dealt to the two windows in halves; both only read it. The accumulator carries nothing from one grid point to
  the next (the body zeroes it first), so the region's invariant is just that buffer at some contents.
-/
import proofs.«129004_j12884901888249_1_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in the result window -/

/-- The body's stores into the result buffer cover it (one store of the whole tile). -/
theorem cover (c : Dev nD) (i : grid0.Coords) (arg2 : Memref sig .tc .vmem S1x128x30 .f32) (harg2 : arg2.IsWhole) (arg3 : Memref sig .tc .vmem S1x1024x30 .f32) (harg3 : arg3.IsWhole) (arg4 : Memref sig .tc .vmem S30x64 .f32) (harg4 : arg4.IsWhole) (arg5 : Memref sig .tc .vmem S30x64 .f32) (harg5 : arg5.IsWhole) (arg6 : Memref sig .tc .vmem S64 .f32) (harg6 : arg6.IsWhole) (arg7 : Memref sig .tc .vmem S64x30 .f32) (harg7 : arg7.IsWhole) (arg8 : Memref sig .tc .vmem S30 .f32) (harg8 : arg8.IsWhole) (arg9 : Memref sig .tc .vmem S1x128x30 .f32) (harg9 : arg9.IsWhole) (arg10 : Memref sig .tc .vmem S128x64 .f32) (harg10 : arg10.IsWhole)
    (x0 : Vec F S1x128x30 .f32) (x1 : Vec F S1x1024x30 .f32) (x2 : Vec F S30x64 .f32) (x3 : Vec F S30x64 .f32) (x4 : Vec F S64 .f32) (x5 : Vec F S64x30 .f32) (x6 : Vec F S30 .f32) (y : S1x128x30.Idx) :
    ∃ pc ∈ (kernelRun c i arg2 harg2 arg3 harg3 arg4 harg4 arg5 harg5 arg6 harg6 arg7 harg7 arg8 harg8 arg9 harg9 arg10 harg10 x0 x1 x2 x3 x4 x5 x6).1, y ∈ pc.1.set :=
  View.cover_of_tiledL (kernelRun c i arg2 harg2 arg3 harg3 arg4 harg4 arg5 harg5 arg6 harg6 arg7 harg7 arg8 harg8 arg9 harg9 arg10 harg10 x0 x1 x2 x3 x4 x5 x6).1 S1x128x30.size (by sl_kernel_rfl) y

/-- What the run leaves in the result window's staging buffer: its pieces read back over junk. -/
def outTile (c : Dev nD) (i : grid0.Coords) (arg2 : Memref sig .tc .vmem S1x128x30 .f32) (harg2 : arg2.IsWhole) (arg3 : Memref sig .tc .vmem S1x1024x30 .f32) (harg3 : arg3.IsWhole) (arg4 : Memref sig .tc .vmem S30x64 .f32) (harg4 : arg4.IsWhole) (arg5 : Memref sig .tc .vmem S30x64 .f32) (harg5 : arg5.IsWhole) (arg6 : Memref sig .tc .vmem S64 .f32) (harg6 : arg6.IsWhole) (arg7 : Memref sig .tc .vmem S64x30 .f32) (harg7 : arg7.IsWhole) (arg8 : Memref sig .tc .vmem S30 .f32) (harg8 : arg8.IsWhole) (arg9 : Memref sig .tc .vmem S1x128x30 .f32) (harg9 : arg9.IsWhole) (arg10 : Memref sig .tc .vmem S128x64 .f32) (harg10 : arg10.IsWhole)
    (x0 : Vec F S1x128x30 .f32) (x1 : Vec F S1x1024x30 .f32) (x2 : Vec F S30x64 .f32) (x3 : Vec F S30x64 .f32) (x4 : Vec F S64 .f32) (x5 : Vec F S64x30 .f32) (x6 : Vec F S30 .f32) : Vec F S1x128x30 .f32 :=
  VO.read (Elt F) (VO.writes (Elt F) VO.junk (kernelRun c i arg2 harg2 arg3 harg3 arg4 harg4 arg5 harg5 arg6 harg6 arg7 harg7 arg8 harg8 arg9 harg9 arg10 harg10 x0 x1 x2 x3 x4 x5 x6).1)

/-- The result tile after the body at point `t`: the run at the point's memrefs and input blocks. -/
def outAt (c : Dev nD) (t : Fin cfg0.N) : Vec F S1x128x30 .f32 :=
  outTile c (grid0.coords t) (ms0 t) (hs0 t) (ms1 t) (hs1 t) (ms2 t) (hs2 t) (ms3 t) (hs3 t) (ms4 t) (hs4 t) (ms5 t) (hs5 t) (ms6 t) (hs6 t) (ms7 t) (hs7 t) acM (Memref.isWhole_whole _) (iblk m c 0 t) (iblk m c 1 t) (iblk m c 2 t) (iblk m c 3 t) (iblk m c 4 t) (iblk m c 5 t) (iblk m c 6 t)

/-! ## The pipeline's proof data -/

/-- The arrays as the region finds them; after the body each input window at its block and the result window at
    `outAt`; the invariant the accumulator at any contents; nothing owed; the points' array shared in halves between
    its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t))

set_option maxHeartbeats 4000000 in
/-- The body at any point: the inputs' memrefs hold their blocks, so the run applies; the accumulator passes in at
    anything and out at anything; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  rw [show (dats m 0 c).Φ t.castSucc = Pipeline.scopedRest spec0 c from rfl, scopedRest_acc]
  unfold outAt
  unfold outTile
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun c (grid0.coords t) _ _ _ _ _ _ _ _ _ _ _ _ _ _ _ _ _ _ (iblk m c 0 t) (iblk m c 1 t) (iblk m c 2 t) (iblk m c 3 t) (iblk m c 4 t) (iblk m c 5 t) (iblk m c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HΦ]; · iexact HΦ
  iintro ⟨H0, H1, H2, H3, H4, H5, H6, ⟨%e7, H7⟩, ⟨%g, HA⟩⟩
  isplitl [HA]
  · unfold owns; iexists _, g; isplitr; · ipureintro; rfl
    iexact HA
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover c _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Whole.lean ====
/-
  `KernelIdeal` from launch to return: the launch deals the region its arrays, the two windows on the points' array each
  take half of that array's share, the slices' source array (which no window stages) bypasses the region, and at
  the end every array is read back.
-/
import proofs.«129004_j12884901888249_1_alg».proof.Proof.KI.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays, each whole at the full share, are the windows' arrays at their shares:
    the points' array is split in halves between its two windows; every other array belongs to one window. -/
theorem hsplit (c : Dev nD) :
    (Pipeline.arrBufs spec0 c (V m c) : sProp 𝕄) ⊢ (dats m 0 c).arrays ((dats m 0 c).arrAt · 0) := by
  have hset : ∀ w : Fin cfg0.W, (cfg0.win w).arr.view.set = Finset.univ := fun w => (arr_whole0 w).set_eq_univ
  unfold Pipeline.arrBufs Dat.arrays
  rw [bigSep_eq_bigSepL_of_eq [main_arg0, main_v0, main_v1, main_arg2, main_arg3, main_arg4, main_v2] (by decide) (by decide), bigSep_W0]
  rw [show (bigSepL [main_arg0, main_v0, main_v1, main_arg2, main_arg3, main_arg4, main_v2] fun b => (((c.tc : Thread nD τ).loc b) ↦{fullShare} V m c b : sProp 𝕄))
      = iprop((((c.tc : Thread nD τ).loc main_arg0) ↦{fullShare} V m c main_arg0) ∗ (((c.tc : Thread nD τ).loc main_v0) ↦{fullShare} V m c main_v0)
          ∗ (((c.tc : Thread nD τ).loc main_v1) ↦{fullShare} V m c main_v1) ∗ (((c.tc : Thread nD τ).loc main_arg2) ↦{fullShare} V m c main_arg2)
          ∗ (((c.tc : Thread nD τ).loc main_arg3) ↦{fullShare} V m c main_arg3) ∗ (((c.tc : Thread nD τ).loc main_arg4) ↦{fullShare} V m c main_arg4)
          ∗ (((c.tc : Thread nD τ).loc main_v2) ↦{fullShare} V m c main_v2)) from rfl]
  have hA : ∀ w : Fin 8, (dats m 0 c).arrAt w 0 = V m c (Pipeline.arrRef spec0 w) := fun w => A_eq m c w
  have hq0 : (dats m 0 c).share (0 : Fin 8) = fullShare.left := by unfold Dat.share; rw [if_neg (by decide)]; rfl
  have hq1 : (dats m 0 c).share (1 : Fin 8) = fullShare.right := by unfold Dat.share; rw [if_neg (by decide)]; rfl
  have hq2 : (dats m 0 c).share (2 : Fin 8) = fullShare := by unfold Dat.share; rw [if_neg (by decide)]; rfl
  have hq3 : (dats m 0 c).share (3 : Fin 8) = fullShare := by unfold Dat.share; rw [if_neg (by decide)]; rfl
  have hq4 : (dats m 0 c).share (4 : Fin 8) = fullShare := by unfold Dat.share; rw [if_neg (by decide)]; rfl
  have hq5 : (dats m 0 c).share (5 : Fin 8) = fullShare := by unfold Dat.share; rw [if_neg (by decide)]; rfl
  have hq6 : (dats m 0 c).share (6 : Fin 8) = fullShare := by unfold Dat.share; rw [if_neg (by decide)]; rfl
  have hq7 : (dats m 0 c).share (7 : Fin 8) = fullShare := by unfold Dat.share; rw [if_pos (by decide)]
  simp only [hset, View.set_whole, hA, hq0, hq1, hq2, hq3, hq4, hq5, hq6, hq7]
  iintro ⟨H0, Hv0, Hv1, H2, H3, H4, Hv2⟩
  ihave H0' := (pointsTo_share (PosShare.mem_left_op_right fullShare)).1 $$ H0
  icases H0' with ⟨H0l, H0r⟩
  isplitl [H0l]; · iexact H0l
  isplitl [H0r]; · iexact H0r
  isplitl [Hv0]; · iexact Hv0
  isplitl [Hv1]; · iexact Hv1
  isplitl [H2]; · iexact H2
  isplitl [H3]; · iexact H3
  isplitl [H4]; · iexact H4
  iexact Hv2

set_option backward.isDefEq.respectTransparency.types false in
/-- At the compiled mesh, for any values, from any memory with zero counters: every weakly fair execution of @main
    terminates without a fault, with the result array at what the write-backs of the body's tiles make of it and every
    argument array as launched. -/
theorem run_main : θ_run defs (onTc (τ := τ) (main (F := F))) ⟨m, fun _ => 0, ρ⟩ (fun r => ∀ c : Dev nD,
      r.2.mem ((c.tc : Thread nD τ).loc main_v2) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj))
    (hu₀ := .rfl)
    (V := V m) (hmain := hmain m Variants.none)
    (hsplit := hsplit m)
    (X := fun _ => iprop(emp)) (Y := fun _ => iprop(emp))
    (Z := fun c => Pipeline.unscopedRest spec0 c (V m c))
    (hX := fun c => by
      iintro H; isplitr; · iempintro
      iexact H)
    (hin := fun c => by
      rw [show (dats m 0 c).Φ 0 = Pipeline.scopedRest spec0 c from rfl]
      iintro ⟨-, H⟩; iexact H)
    (hout := fun c => by
      rw [show (dats m 0 c).Φ (Fin.last cfg0.N) = Pipeline.scopedRest spec0 c from rfl]
      iintro H; isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c =>
      ⟨(h c).1 7,
       ((h c).1 0).trans (((dats m 0 c).arrAt_in 0 rfl _).trans ((A_eq m c 0).trans (V_main_arg0 m c))),
       ((h c).2 main_arg1 (Pipeline.mem_restRefs_of main_arg1 (by decide) (by decide))).trans (V_main_arg1 m c),
       ((h c).1 4).trans (((dats m 0 c).arrAt_in 4 rfl _).trans ((A_eq m c 4).trans (V_main_arg2 m c))),
       ((h c).1 5).trans (((dats m 0 c).arrAt_in 5 rfl _).trans ((A_eq m c 5).trans (V_main_arg3 m c))),
       ((h c).1 6).trans (((dats m 0 c).arrAt_in 6 rfl _).trans ((A_eq m c 6).trans (V_main_arg4 m c)))⟩)

/-- info: 'Cert.KernelIdeal.Hand.run_main' depends on axioms: [propext, Classical.choice, Quot.sound] -/
#guard_msgs in #print axioms run_main

/-- The frame: termination, no fault, the argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_main m ρ)

end Cert.KernelIdeal.Hand

end
-- ==== Proof.KI.Acc.lean ====
/-
  The accumulator of one grid point, as a recurrence.

  Within a grid point the body first stores zeros into its accumulator, then makes eight trips; trip `k` reads the
  chunk of 128 partner rows starting at row `128 k` of the batch block, and replaces the accumulator `a` by
  `a + Σ_q relu ((tile · W_lo)[p] + (chunk · W_hi)[q] + c)` — one application of the loop body's payload. `accN n`
  is the accumulator after `n` trips, stated over the blocks the body loads.
-/
import proofs.«129004_j12884901888249_1_alg».proof.Proof.Gen.KernelIdeal.Skeleton
import Idealize.ShloMosaic.Lib.Pipeline.FrameBody

noncomputable section

namespace Cert.KernelIdeal.Hand

open Cert.KernelIdeal Cert.KernelIdeal.Gen
open Idealize.ShloMosaic

variable {F : FTy → Type} [FloatOps F]

/-- The 128 partner rows trip `k` reads, out of the batch block `x1`. -/
def chunk (x1 : Vec F S1x1024x30 .f32) (k : Fin k0_t1_loop.trips) : Vec F S1x128x30 .f32 :=
  View.ld x1 (Rect.unit (s := S1x1024x30) (k0_off1 k) S1x128x30.size (Facts₀.k0_off1_inb k))

/-- The accumulator after `n` trips: zeros, then one application of the loop body's payload per trip. -/
def accN (x0 : Vec F S1x128x30 .f32) (x1 : Vec F S1x1024x30 .f32) (x2 x3 : Vec F S30x64 .f32) (x4 : Vec F S64 .f32) :
    ℕ → Vec F S128x64 .f32
  | 0 => k0_pay1
  | n + 1 =>
    if h : n < k0_t1_loop.trips then k0_pay2 x0 x2 (chunk x1 ⟨n, h⟩) x3 x4 (accN x0 x1 x2 x3 x4 n)
    else accN x0 x1 x2 x3 x4 n

theorem accN_zero (x0 : Vec F S1x128x30 .f32) (x1 : Vec F S1x1024x30 .f32) (x2 x3 : Vec F S30x64 .f32) (x4 : Vec F S64 .f32) :
    accN x0 x1 x2 x3 x4 0 = k0_pay1 := rfl

theorem accN_succ (x0 : Vec F S1x128x30 .f32) (x1 : Vec F S1x1024x30 .f32) (x2 x3 : Vec F S30x64 .f32) (x4 : Vec F S64 .f32)
    (k : Fin k0_t1_loop.trips) :
    accN x0 x1 x2 x3 x4 (k.val + 1) = k0_pay2 x0 x2 (chunk x1 k) x3 x4 (accN x0 x1 x2 x3 x4 k.val) := by
  rw [accN]; exact dif_pos k.isLt

/-- The loop makes eight trips. -/
theorem trips_eq : k0_t1_loop.trips = 8 := by decide +kernel

/-- The result tile of one grid point, as a function of the seven blocks the body loads. -/
def tileOf (x0 : Vec F S1x128x30 .f32) (x1 : Vec F S1x1024x30 .f32) (x2 x3 : Vec F S30x64 .f32) (x4 : Vec F S64 .f32)
    (x5 : Vec F S64x30 .f32) (x6 : Vec F S30 .f32) : Vec F S1x128x30 .f32 :=
  k0_pay3 (accN x0 x1 x2 x3 x4 k0_t1_loop.trips) x5 x6

end Cert.KernelIdeal.Hand

end
-- ==== Proof.KI.Tile.lean ====
/-
  The result tile the run finds is `tileOf` of the seven blocks the body loads, at every float instance.

  The run leaves one piece in the result buffer: the closing payload applied to the accumulator as loaded after
  the loop, the second map and its bias. The accumulator after the loop is what eight trips leave over the zeroing
  store; trip `k` stores one whole tile, the loop body's payload of the accumulator it finds and the chunk it reads.
  So loading the accumulator after `n` trips gives `accN n` (induction on `n`), and the tile is `tileOf`.
-/
import proofs.«129004_j12884901888249_1_alg».proof.Proof.KI.Frame
import proofs.«129004_j12884901888249_1_alg».proof.Proof.KI.Acc
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → ℕ) = fun _ => 0 := by funext a; fin_cases a <;> rfl
theorem hz3 : (![0, 0, 0] : Fin 3 → ℕ) = fun _ => 0 := by funext a; fin_cases a <;> rfl
theorem hz1 : (![0] : Fin 1 → ℕ) = fun _ => 0 := by funext a; fin_cases a; rfl

/-- A whole buffer that reads `x`, loaded through the whole-shape rectangle, gives `x`. -/
theorem load_whole {sp : Space} {S : Shape} {e : EltTy} (a : Memref sig .tc sp S e) (ha : a.IsWhole) (x : S.Idx → Elt F e)
    {off : Fin S.rank → ℕ} (h : off = fun _ => 0) (inb : ∀ b, off b + S.size b ≤ S.size b) :
    View.readAt (Elt F) a.view (Rect.unit (s := S) off S.size inb).toLoadRect (ha.unread x) = x := by
  rw [View.readAt_eq_ld, ha.read_unread, View.ld_unit_zero h inb]

/-- After a store of the whole tile (the last store), a load of the whole tile reads that store's payload, whatever the
    earlier stores were. -/
theorem load_after_whole_store {sp : Space} {S : Shape} {e : EltTy} (a : Memref sig .tc sp S e) {off : Fin S.rank → ℕ} (h : off = fun _ => 0)
    (inb : ∀ b, off b + S.size b ≤ S.size b) (w : S.Idx → Elt F e) (L : List (View.Piece (Elt F) S e)) :
    View.readAt (Elt F) a.view (Rect.unit (s := S) off S.size inb).toLoadRect
      (a.view.writes (Elt F) a.view.junk ((⟨Rect.unit (s := S) off S.size inb, w⟩ : View.Piece (Elt F) S e) :: L)) = w := by
  rw [View.readAt_eq_ld, View.ld_unit_zero h inb,
    View.read_writes_eq_canon _ _ _ (fun y => ⟨_, List.mem_cons_self .., View.mem_set_unit_zero h inb y⟩),
    View.canon_cons_unit_zero h inb]

section
variable (c : Dev nD) (i : grid0.Coords) (arg2 : Memref sig .tc .vmem S1x128x30 .f32) (harg2 : arg2.IsWhole) (arg3 : Memref sig .tc .vmem S1x1024x30 .f32) (harg3 : arg3.IsWhole) (arg4 : Memref sig .tc .vmem S30x64 .f32) (harg4 : arg4.IsWhole) (arg5 : Memref sig .tc .vmem S30x64 .f32) (harg5 : arg5.IsWhole) (arg6 : Memref sig .tc .vmem S64 .f32) (harg6 : arg6.IsWhole) (arg7 : Memref sig .tc .vmem S64x30 .f32) (harg7 : arg7.IsWhole) (arg8 : Memref sig .tc .vmem S30 .f32) (harg8 : arg8.IsWhole) (arg9 : Memref sig .tc .vmem S1x128x30 .f32) (harg9 : arg9.IsWhole) (arg10 : Memref sig .tc .vmem S128x64 .f32) (harg10 : arg10.IsWhole)

/-- Trip `k` stores ONE whole tile into the accumulator: the loop body's payload of what it loads. -/
theorem tripL_eq (v0 : Vec F S1x128x30 .f32) (v2 : Vec F S30x64 .f32)
    (X3 : BufTy.Contents (Elt F) arg3.view.ty) (X5 : BufTy.Contents (Elt F) arg5.view.ty) (X6 : BufTy.Contents (Elt F) arg6.view.ty)
    (k : Fin k0_t1_loop.trips) (f : BufTy.Contents (Elt F) arg10.view.ty) :
    tripL_k0_t1 (F := F) Variants.none c none i arg2 harg2 arg3 harg3 arg4 harg4 arg5 harg5 arg6 harg6 arg7 harg7 arg8 harg8 arg9 harg9 arg10 harg10 v0 v2 X3 X5 X6 k f
      = [⟨Rect.unit (s := S128x64) ![0, 0] S128x64.size Facts₀.inb_S128x64_S128x64_0_0,
          k0_pay2 v0 v2
            (View.readAt (Elt F) arg3.view (Rect.unit (s := S1x1024x30) (k0_off1 k) S1x128x30.size (Facts₀.k0_off1_inb k)).toLoadRect X3)
            (View.readAt (Elt F) arg5.view (Rect.unit (s := S30x64) ![0, 0] S30x64.size Facts₀.inb_S30x64_S30x64_0_0).toLoadRect X5)
            (View.readAt (Elt F) arg6.view (Rect.unit (s := S64) ![0] S64.size Facts₀.inb_S64_S64_0).toLoadRect X6)
            (View.readAt (Elt F) arg10.view (Rect.unit (s := S128x64) ![0, 0] S128x64.size Facts₀.inb_S128x64_S128x64_0_0).toLoadRect f)⟩] := by
  unfold tripL_k0_t1 trip_k0_t1
  dsimp only

/-- Loading the accumulator after `n` trips over the zeroing store gives `accN n`. -/
theorem acc_after (x0 : Vec F S1x128x30 .f32) (x1 : Vec F S1x1024x30 .f32) (x2 : Vec F S30x64 .f32) (x3 : Vec F S30x64 .f32) (x4 : Vec F S64 .f32) :
    ∀ n : ℕ, n ≤ k0_t1_loop.trips →
    View.readAt (Elt F) arg10.view (Rect.unit (s := S128x64) ![0, 0] S128x64.size Facts₀.inb_S128x64_S128x64_0_0).toLoadRect
      (arg10.view.writes (Elt F) arg10.view.junk
        (pb_k0_t1 (F := F) Variants.none c none i arg2 harg2 arg3 harg3 arg4 harg4 arg5 harg5 arg6 harg6 arg7 harg7 arg8 harg8 arg9 harg9 arg10 harg10
            x0 x2
            (harg3.unread x1) (harg5.unread x3) (harg6.unread x4)
            (arg10.view.writes (Elt F) arg10.view.junk [⟨Rect.unit (s := S128x64) ![0, 0] S128x64.size Facts₀.inb_S128x64_S128x64_0_0, k0_pay1⟩])
            n
          ++ [⟨Rect.unit (s := S128x64) ![0, 0] S128x64.size Facts₀.inb_S128x64_S128x64_0_0, k0_pay1⟩]))
      = accN x0 x1 x2 x3 x4 n := by
  intro n
  induction n with
  | zero =>
    intro _
    rw [show pb_k0_t1 (F := F) Variants.none c none i arg2 harg2 arg3 harg3 arg4 harg4 arg5 harg5 arg6 harg6 arg7 harg7 arg8 harg8 arg9 harg9 arg10 harg10 _ _ _ _ _ _ 0 = [] from rfl, List.nil_append,
      load_after_whole_store arg10 hz2]
    rfl
  | succ k ih =>
    intro hk
    have hk' : k < k0_t1_loop.trips := hk
    rw [show k + 1 = (⟨k, hk'⟩ : Fin k0_t1_loop.trips).val + 1 from rfl, pb_k0_t1_succ, tripL_eq, accN_succ,
      List.singleton_append, List.cons_append, load_after_whole_store arg10 hz2]
    rw [load_whole arg5 harg5 x3 hz2, load_whole arg6 harg6 x4 hz1, ← View.writes_append, ih (Nat.le_of_lt hk'),
      View.readAt_eq_ld, harg3.read_unread]
    rfl

end

/-- The result tile the run finds is the closing payload of the accumulator after the eight trips. -/
theorem outTile_eq (c : Dev nD) (i : grid0.Coords) (arg2 : Memref sig .tc .vmem S1x128x30 .f32) (harg2 : arg2.IsWhole) (arg3 : Memref sig .tc .vmem S1x1024x30 .f32) (harg3 : arg3.IsWhole) (arg4 : Memref sig .tc .vmem S30x64 .f32) (harg4 : arg4.IsWhole) (arg5 : Memref sig .tc .vmem S30x64 .f32) (harg5 : arg5.IsWhole) (arg6 : Memref sig .tc .vmem S64 .f32) (harg6 : arg6.IsWhole) (arg7 : Memref sig .tc .vmem S64x30 .f32) (harg7 : arg7.IsWhole) (arg8 : Memref sig .tc .vmem S30 .f32) (harg8 : arg8.IsWhole) (arg9 : Memref sig .tc .vmem S1x128x30 .f32) (harg9 : arg9.IsWhole) (arg10 : Memref sig .tc .vmem S128x64 .f32) (harg10 : arg10.IsWhole)
    (x0 : Vec F S1x128x30 .f32) (x1 : Vec F S1x1024x30 .f32) (x2 : Vec F S30x64 .f32) (x3 : Vec F S30x64 .f32) (x4 : Vec F S64 .f32) (x5 : Vec F S64x30 .f32) (x6 : Vec F S30 .f32) :
    outTile c i arg2 harg2 arg3 harg3 arg4 harg4 arg5 harg5 arg6 harg6 arg7 harg7 arg8 harg8 arg9 harg9 arg10 harg10 x0 x1 x2 x3 x4 x5 x6 = tileOf x0 x1 x2 x3 x4 x5 x6 := by
  unfold outTile
  rw [View.read_writes_eq_canon _ _ _ (cover c i arg2 harg2 arg3 harg3 arg4 harg4 arg5 harg5 arg6 harg6 arg7 harg7 arg8 harg8 arg9 harg9 arg10 harg10 x0 x1 x2 x3 x4 x5 x6)]
  unfold kernelRun
  dsimp only
  sl_unfold_words
  rw [View.canon_unit_zero hz3]
  unfold tileOf
  rw [load_whole arg7 harg7 x5 hz2, load_whole arg8 harg8 x6 hz1, load_whole arg2 harg2 x0 hz3, load_whole arg4 harg4 x2 hz2]
  exact congrArg (fun a => k0_pay3 a x5 x6) (acc_after c i arg2 harg2 arg3 harg3 arg4 harg4 arg5 harg5 arg6 harg6 arg7 harg7 arg8 harg8 arg9 harg9 arg10 harg10 x0 x1 x2 x3 x4 _ (le_refl _))

end Cert.KernelIdeal.Hand

end
-- ==== Proof.Spec.lean ====
/-
  The function both programs compute, stated once over the argument arrays and read index by index on the
  extended reals.

  For a batch `b`, a row `n` and a hidden unit `h`, every row `j` of the same batch contributes
  `relu ((z[b,n,:] · W[0:30,h] + z[b,j,:] · W[30:60,h]) + c[h])`; these 1024 contributions are summed (`agg`),
  the sums are pushed through the second linear map `A` with its bias `e`, and a last `relu` is applied:

      G[b,n,o] = relu ((Σ_h agg[b,n,h] · A[h,o]) + e[o]).

  `agg_chunks` is the one regrouping the proof of equality needs: the sum over the 1024 rows is the sum, over
  eight consecutive chunks, of the sums over the 128 rows of each chunk. It holds in any commutative additive
  monoid, so on the extended reals it needs no finiteness.
-/
import Idealize.ShloMosaic.PureOps.Ideal
import Idealize.ShloMosaic.Lib.ValueIdx
import Mathlib.Algebra.BigOperators.Fin

noncomputable section

namespace Cert.PairRelu

open Idealize.ShloMosaic Idealize.ShloMosaic.ValueIdx

/-- The shapes of the five arguments: the points `z`, the first linear map `W` (its two halves stacked), its bias,
    the second linear map and its bias. -/
abbrev SZ : Shape := ⟨3, ![2, 1024, 30]⟩
abbrev SW : Shape := ⟨2, ![60, 64]⟩
abbrev SB : Shape := ⟨1, ![64]⟩
abbrev SA : Shape := ⟨2, ![64, 30]⟩
abbrev SE : Shape := ⟨1, ![30]⟩

/-- Row `d` of the upper half of `W` (the rows that multiply the row `n` itself). -/
def lo (d : Fin 30) : Fin 60 := ⟨d.val, by have := d.isLt; omega⟩
/-- Row `d` of the lower half of `W` (the rows that multiply the partner row `j`). -/
def hi (d : Fin 30) : Fin 60 := ⟨30 + d.val, by have := d.isLt; omega⟩

/-- Row `n` of batch `b` against the upper half of `W`, at hidden unit `h`. -/
def projLo (z : SZ.Idx → EReal) (w : SW.Idx → EReal) (b : Fin 2) (n : Fin 1024) (h : Fin 64) : EReal :=
  ∑ d : Fin 30, z (ix3 b n d) * w (ix2 (lo d) h)

/-- Row `j` of batch `b` against the lower half of `W`, at hidden unit `h`. -/
def projHi (z : SZ.Idx → EReal) (w : SW.Idx → EReal) (b : Fin 2) (j : Fin 1024) (h : Fin 64) : EReal :=
  ∑ d : Fin 30, z (ix3 b j d) * w (ix2 (hi d) h)

/-- What the pair of rows `(n, j)` contributes at hidden unit `h`. -/
def pair (z : SZ.Idx → EReal) (w : SW.Idx → EReal) (c : SB.Idx → EReal) (b : Fin 2) (n j : Fin 1024) (h : Fin 64) : EReal :=
  max ((projLo z w b n h + projHi z w b j h) + c (ix1 h)) 0

/-- The contributions of all partner rows, summed. -/
def agg (z : SZ.Idx → EReal) (w : SW.Idx → EReal) (c : SB.Idx → EReal) (b : Fin 2) (n : Fin 1024) (h : Fin 64) : EReal :=
  ∑ j : Fin 1024, pair z w c b n j h

/-- The result array. -/
def G (z : SZ.Idx → EReal) (w : SW.Idx → EReal) (c : SB.Idx → EReal) (a : SA.Idx → EReal) (e : SE.Idx → EReal) :
    SZ.Idx → EReal := fun i =>
  max ((∑ h : Fin 64, agg z w c (i 0) (i 1) h * a (ix2 h (i 2))) + e (ix1 (i 2))) 0

/-- Row `q` of chunk `k` (chunks of 128 consecutive rows). -/
def row (k : Fin 8) (q : Fin 128) : Fin 1024 := ⟨128 * k.val + q.val, by have := k.isLt; have := q.isLt; omega⟩

/-- A sum over 1024 rows, regrouped as eight chunks of 128. -/
theorem sum_chunks {M : Type} [AddCommMonoid M] (f : Fin 1024 → M) :
    ∑ j : Fin 1024, f j = ∑ k : Fin 8, ∑ q : Fin 128, f (row k q) := by
  rw [← Finset.sum_product', Finset.univ_product_univ]
  refine (Fintype.sum_equiv (finProdFinEquiv (m := 8) (n := 128)) _ _ fun p => ?_).symm
  refine congrArg f (Fin.ext ?_)
  show 128 * p.1.val + p.2.val = p.2.val + 128 * p.1.val
  omega

theorem agg_chunks (z : SZ.Idx → EReal) (w : SW.Idx → EReal) (c : SB.Idx → EReal) (b : Fin 2) (n : Fin 1024) (h : Fin 64) :
    agg z w c b n h = ∑ k : Fin 8, ∑ q : Fin 128, pair z w c b n (row k q) h :=
  sum_chunks _

end Cert.PairRelu

end
-- ==== Proof.KI.TileAt.lean ====
/-
  The result tile of one grid point, read at an index.

  At the ideal values every operation of the body reads at an index as the formula it stands for: a product into a
  zero accumulator is the sum of the operands' products over the shared coordinate, a broadcast repeats its operand, the
  reduction over the middle axis is the sum over it, and the zero splat is `0`. One trip of the loop therefore adds, at
  row `p` and hidden unit `h`, the 128 rectified contributions of its chunk of partner rows; eight trips from zero
  give the sum over the eight chunks; and the closing product with the second map, its bias and the last
  rectification give the specification's formula for the tile, with the 1024 partner rows grouped in eight chunks
  of 128.
-/
import proofs.«129004_j12884901888249_1_alg».proof.Proof.KI.Acc
import proofs.«129004_j12884901888249_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

/-! ## The two matrix products at an index -/

theorem lhs_proj_0 (i : S128x64.Idx) (q : dot_S128x30_S30x64_S128x64_1_0_0_1_n_n.contr.Idx) :
    (dot_S128x30_S30x64_S128x64_1_0_0_1_n_n.lhsIdx i q 0).val = (i 0).val := by
  unfold DotDims.lhsIdx
  rw [dif_neg (show ¬(0 : Fin S128x30.rank) ∈ dot_S128x30_S30x64_S128x64_1_0_0_1_n_n.lhsBatch by decide), dif_pos (show (0 : Fin S128x30.rank) ∈ dot_S128x30_S30x64_S128x64_1_0_0_1_n_n.lhsNonContracting by decide)]
  rfl
theorem lhs_proj_1 (i : S128x64.Idx) (q : dot_S128x30_S30x64_S128x64_1_0_0_1_n_n.contr.Idx) :
    (dot_S128x30_S30x64_S128x64_1_0_0_1_n_n.lhsIdx i q 1).val = (q ⟨0, by decide⟩).val :=
  dot_S128x30_S30x64_S128x64_1_0_0_1_n_n.lhsIdx_val_of_single rfl i q
theorem rhs_proj_0 (i : S128x64.Idx) (q : dot_S128x30_S30x64_S128x64_1_0_0_1_n_n.contr.Idx) :
    (dot_S128x30_S30x64_S128x64_1_0_0_1_n_n.rhsIdx i q 0).val = (q ⟨0, by decide⟩).val :=
  dot_S128x30_S30x64_S128x64_1_0_0_1_n_n.rhsIdx_val_of_single rfl i q
theorem rhs_proj_1 (i : S128x64.Idx) (q : dot_S128x30_S30x64_S128x64_1_0_0_1_n_n.contr.Idx) :
    (dot_S128x30_S30x64_S128x64_1_0_0_1_n_n.rhsIdx i q 1).val = (i 1).val := by
  unfold DotDims.rhsIdx
  rw [dif_neg (show ¬(1 : Fin S30x64.rank) ∈ dot_S128x30_S30x64_S128x64_1_0_0_1_n_n.rhsBatch by decide), dif_pos (show (1 : Fin S30x64.rank) ∈ dot_S128x30_S30x64_S128x64_1_0_0_1_n_n.rhsNonContracting by decide)]
  rfl

/-- A [128,30] by [30,64] product into a zero accumulator, at row `p` and column `h`: the sum over the 30 shared
    coordinates. -/
theorem proj_apply (a : FVec Ideal S128x30 .f32) (b : FVec Ideal S30x64 .f32) (p : Fin 128) (h : Fin 64) :
    matmul (F := Ideal) dot_S128x30_S30x64_S128x64_1_0_0_1_n_n none a b (constant (F := Ideal) S128x64 .f32 0x00000000#32) (ix2 p h)
      = ∑ d : Fin 30, a (ix2 p d) * b (ix2 d h) := by
  simp only [matmul]
  rw [Ideal.matmul_constant_zero_apply, ← Equiv.sum_comp (ValueIdx.contrEquiv1 dot_S128x30_S30x64_S128x64_1_0_0_1_n_n 30 rfl rfl).symm]
  refine Finset.sum_congr rfl fun k _ => ?_
  have hk := ValueIdx.contrEquiv1_symm_val dot_S128x30_S30x64_S128x64_1_0_0_1_n_n 30 rfl rfl k
  have el : dot_S128x30_S30x64_S128x64_1_0_0_1_n_n.lhsIdx (ix2 p h) ((ValueIdx.contrEquiv1 dot_S128x30_S30x64_S128x64_1_0_0_1_n_n 30 rfl rfl).symm k) = ix2 p k := funext fun a => Fin.ext (by
    match a with
    | ⟨0, _⟩ => exact lhs_proj_0 _ _
    | ⟨1, _⟩ => exact (lhs_proj_1 _ _).trans hk)
  have er : dot_S128x30_S30x64_S128x64_1_0_0_1_n_n.rhsIdx (ix2 p h) ((ValueIdx.contrEquiv1 dot_S128x30_S30x64_S128x64_1_0_0_1_n_n 30 rfl rfl).symm k) = ix2 k h := funext fun a => Fin.ext (by
    match a with
    | ⟨0, _⟩ => exact (rhs_proj_0 _ _).trans hk
    | ⟨1, _⟩ => exact rhs_proj_1 _ _)
  rw [el, er]

theorem lhs_out_0 (i : S128x30.Idx) (q : dot_S128x64_S64x30_S128x30_1_0_0_1_n_n.contr.Idx) :
    (dot_S128x64_S64x30_S128x30_1_0_0_1_n_n.lhsIdx i q 0).val = (i 0).val := by
  unfold DotDims.lhsIdx
  rw [dif_neg (show ¬(0 : Fin S128x64.rank) ∈ dot_S128x64_S64x30_S128x30_1_0_0_1_n_n.lhsBatch by decide), dif_pos (show (0 : Fin S128x64.rank) ∈ dot_S128x64_S64x30_S128x30_1_0_0_1_n_n.lhsNonContracting by decide)]
  rfl
theorem lhs_out_1 (i : S128x30.Idx) (q : dot_S128x64_S64x30_S128x30_1_0_0_1_n_n.contr.Idx) :
    (dot_S128x64_S64x30_S128x30_1_0_0_1_n_n.lhsIdx i q 1).val = (q ⟨0, by decide⟩).val :=
  dot_S128x64_S64x30_S128x30_1_0_0_1_n_n.lhsIdx_val_of_single rfl i q
theorem rhs_out_0 (i : S128x30.Idx) (q : dot_S128x64_S64x30_S128x30_1_0_0_1_n_n.contr.Idx) :
    (dot_S128x64_S64x30_S128x30_1_0_0_1_n_n.rhsIdx i q 0).val = (q ⟨0, by decide⟩).val :=
  dot_S128x64_S64x30_S128x30_1_0_0_1_n_n.rhsIdx_val_of_single rfl i q
theorem rhs_out_1 (i : S128x30.Idx) (q : dot_S128x64_S64x30_S128x30_1_0_0_1_n_n.contr.Idx) :
    (dot_S128x64_S64x30_S128x30_1_0_0_1_n_n.rhsIdx i q 1).val = (i 1).val := by
  unfold DotDims.rhsIdx
  rw [dif_neg (show ¬(1 : Fin S64x30.rank) ∈ dot_S128x64_S64x30_S128x30_1_0_0_1_n_n.rhsBatch by decide), dif_pos (show (1 : Fin S64x30.rank) ∈ dot_S128x64_S64x30_S128x30_1_0_0_1_n_n.rhsNonContracting by decide)]
  rfl

/-- A [128,64] by [64,30] product into a zero accumulator, at row `p` and column `o`: the sum over the 64 hidden
    units. -/
theorem out_apply (a : FVec Ideal S128x64 .f32) (b : FVec Ideal S64x30 .f32) (p : Fin 128) (o : Fin 30) :
    matmul (F := Ideal) dot_S128x64_S64x30_S128x30_1_0_0_1_n_n none a b (constant (F := Ideal) S128x30 .f32 0x00000000#32) (ix2 p o)
      = ∑ h : Fin 64, a (ix2 p h) * b (ix2 h o) := by
  simp only [matmul]
  rw [Ideal.matmul_constant_zero_apply, ← Equiv.sum_comp (ValueIdx.contrEquiv1 dot_S128x64_S64x30_S128x30_1_0_0_1_n_n 64 rfl rfl).symm]
  refine Finset.sum_congr rfl fun k _ => ?_
  have hk := ValueIdx.contrEquiv1_symm_val dot_S128x64_S64x30_S128x30_1_0_0_1_n_n 64 rfl rfl k
  have el : dot_S128x64_S64x30_S128x30_1_0_0_1_n_n.lhsIdx (ix2 p o) ((ValueIdx.contrEquiv1 dot_S128x64_S64x30_S128x30_1_0_0_1_n_n 64 rfl rfl).symm k) = ix2 p k := funext fun a => Fin.ext (by
    match a with
    | ⟨0, _⟩ => exact lhs_out_0 _ _
    | ⟨1, _⟩ => exact (lhs_out_1 _ _).trans hk)
  have er : dot_S128x64_S64x30_S128x30_1_0_0_1_n_n.rhsIdx (ix2 p o) ((ValueIdx.contrEquiv1 dot_S128x64_S64x30_S128x30_1_0_0_1_n_n 64 rfl rfl).symm k) = ix2 k o := funext fun a => Fin.ext (by
    match a with
    | ⟨0, _⟩ => exact (rhs_out_0 _ _).trans hk
    | ⟨1, _⟩ => exact rhs_out_1 _ _)
  rw [el, er]

/-! ## The layout operations of the pairwise step at an index -/

section Layout
variable {α : Type}

/-- A [128,64] array viewed [128,1,64] reads, at `(p, u, h)`, the operand at `(p, h)`. -/
theorem cast_col_apply (x : S128x64.Idx → α) (p : Fin 128) (u : Fin 1) (h : Fin 64) :
    shapeCast S128x1x64 x shapeCasts_S128x64_S128x1x64 (ix3 p u h) = x (ix2 p h) :=
  shapeCast_apply x _ _ _ (by
    have hu : u.val = 0 := by omega
    rw [Shape.rowMajor_val_three, Shape.rowMajor_val_two]
    show p.val * 64 + h.val = (p.val * 1 + u.val) * 64 + h.val
    rw [hu, Nat.mul_one, Nat.add_zero])

/-- A [128,1,64] array broadcast to [128,128,64] reads, at `(p, q, h)`, the operand at `(p, 0, h)`. -/
theorem bcast_col_apply (x : S128x1x64.Idx → α) (p q : Fin 128) (h : Fin 64) :
    broadcastTo S128x128x64 x broadcasts_S128x1x64_S128x128x64 (ix3 p q h) = x (ix3 p (0 : Fin 1) h) := by
  refine broadcastTo_apply x _ (ix3 p q h) (ix3 p (0 : Fin 1) h) fun ax => ?_
  match ax with
  | ⟨0, _⟩ => rfl
  | ⟨1, _⟩ => rfl
  | ⟨2, _⟩ => rfl

/-- A [1,128,64] array broadcast to [128,128,64] reads, at `(p, q, h)`, the operand at `(0, q, h)`. -/
theorem bcast_row_apply (x : S1x128x64.Idx → α) (p q : Fin 128) (h : Fin 64) :
    broadcastTo S128x128x64 x broadcasts_S1x128x64_S128x128x64 (ix3 p q h) = x (ix3 (0 : Fin 1) q h) := by
  refine broadcastTo_apply x _ (ix3 p q h) (ix3 (0 : Fin 1) q h) fun ax => ?_
  match ax with
  | ⟨0, _⟩ => rfl
  | ⟨1, _⟩ => rfl
  | ⟨2, _⟩ => rfl

/-- A [64] array viewed [1,1,64] reads, at `(u, u', h)`, the operand at `h`. -/
theorem cast_bias_apply (x : S64.Idx → α) (u u' : Fin 1) (h : Fin 64) :
    shapeCast S1x1x64 x shapeCasts_S64_S1x1x64 (ix3 u u' h) = x (ix1 h) :=
  shapeCast_apply x _ _ _ (by
    have hu : u.val = 0 := by omega
    have hu' : u'.val = 0 := by omega
    rw [Shape.rowMajor_val_three, Shape.rowMajor_val_one]
    show h.val = (u.val * 1 + u'.val) * 64 + h.val
    omega)

/-- A [1,1,64] array broadcast to [128,128,64] reads, at `(p, q, h)`, the operand at `(0, 0, h)`. -/
theorem bcast_bias_apply (x : S1x1x64.Idx → α) (p q : Fin 128) (h : Fin 64) :
    broadcastTo S128x128x64 x broadcasts_S1x1x64_S128x128x64 (ix3 p q h) = x (ix3 (0 : Fin 1) (0 : Fin 1) h) := by
  refine broadcastTo_apply x _ (ix3 p q h) (ix3 (0 : Fin 1) (0 : Fin 1) h) fun ax => ?_
  match ax with
  | ⟨0, _⟩ => rfl
  | ⟨1, _⟩ => rfl
  | ⟨2, _⟩ => rfl

end Layout

/-- The sum over the middle axis of a [128,128,64] array, at `(p, h)`: the sum over `q` of the entries `(p, q, h)`. -/
theorem lane_sum_apply (src : FVec Ideal S128x128x64 .f32) (hφ : FKind.Formats .f32)
    (hacc : (0x00000000#32 : BitVec 32) = 0x00000000#32) (p : Fin 128) (h : Fin 64) :
    multiReduction (F := Ideal) .add [1] S128x64 src 0x00000000#32 reduces_S128x128x64_S128x64 hφ hacc (ix2 p h)
      = ∑ q : Fin 128, src (ix3 p q h) := by
  refine (Ideal.multiReduction_add_single src 0x00000000#32 reduces_S128x128x64_S128x64 hφ hacc (ix2 p h)).trans ?_
  refine Finset.sum_congr rfl fun q _ => congrArg src (funext fun ax => Fin.ext ?_)
  match ax with
  | ⟨0, _⟩ => rfl
  | ⟨1, _⟩ => rfl
  | ⟨2, _⟩ => rfl

/-! ## The three payloads at an index -/

/-- The zero splat reads zero. -/
theorem pay1_apply (p : Fin 128) (h : Fin 64) : (k0_pay1 (F := Ideal)) (ix2 p h) = 0 := by
  unfold k0_pay1
  simp only [shapeCast_self]
  exact Ideal.ofBits_zero_f32

/-- One trip of the loop at `(p, h)`: the accumulator there plus, over the 128 partner rows `q` of the chunk, the
    rectified sum of row `p` against the upper weights, row `q` against the lower weights, and the bias. -/
theorem pay2_apply (x0 : Vec Ideal S1x128x30 .f32) (x2 : Vec Ideal S30x64 .f32) (v27 : Vec Ideal S1x128x30 .f32)
    (x3 : Vec Ideal S30x64 .f32) (x4 : Vec Ideal S64 .f32) (a : Vec Ideal S128x64 .f32) (p : Fin 128) (h : Fin 64) :
    k0_pay2 (F := Ideal) x0 x2 v27 x3 x4 a (ix2 p h)
      = a (ix2 p h) + ∑ q : Fin 128, max (((∑ d : Fin 30, x0 (ix3 (0 : Fin 1) p d) * x2 (ix2 d h))
          + (∑ d : Fin 30, v27 (ix3 (0 : Fin 1) q d) * x3 (ix2 d h))) + x4 (ix1 h)) 0 := by
  unfold k0_pay2
  simp only [shapeCast_self]
  rw [addf_apply, lane_sum_apply]
  refine congrArg (a (ix2 p h) + ·) (Finset.sum_congr rfl fun q _ => ?_)
  rw [maximumf_apply, addf_apply, addf_apply, broadcast_apply, bcast_col_apply, bcast_row_apply, bcast_bias_apply,
    cast_col_apply, shapeCast_ab_1ab_apply, cast_bias_apply, proj_apply, proj_apply]
  simp only [shapeCast_1ab_ab_apply]
  rw [show (Scalar.ofBits .f32 0x00000000#32 : Ideal .f32) = 0 from Ideal.ofBits_zero_f32]

/-- The closing step at `(0, p, o)`: the accumulator's row `p` against column `o` of the second map, plus the bias,
    rectified. -/
theorem pay3_apply (acc : Vec Ideal S128x64 .f32) (x5 : Vec Ideal S64x30 .f32) (x6 : Vec Ideal S30 .f32)
    (p : Fin 128) (o : Fin 30) :
    k0_pay3 (F := Ideal) acc x5 x6 (ix3 (0 : Fin 1) p o)
      = max ((∑ h : Fin 64, acc (ix2 p h) * x5 (ix2 h o)) + x6 (ix1 o)) 0 := by
  unfold k0_pay3
  rw [shapeCast_ab_1ab_apply, maximumf_apply, addf_apply, broadcast_apply, out_apply, broadcastTo_1b_ab_apply,
    shapeCast_a_1a_apply]
  rw [show (Scalar.ofBits .f32 0x00000000#32 : Ideal .f32) = 0 from Ideal.ofBits_zero_f32]

/-! ## The chunk a trip reads -/

/-- Row `q` of the chunk trip `k` reads is row `128 k + q` of the batch block. -/
theorem chunk_apply (x1 : Vec Ideal S1x1024x30 .f32) (k : Fin k0_t1_loop.trips) (k' : Fin 8) (hk : k'.val = k.val)
    (q : Fin 128) (d : Fin 30) :
    chunk (F := Ideal) x1 k (ix3 (0 : Fin 1) q d) = x1 (ix3 (0 : Fin 1) (Cert.PairRelu.row k' q) d) := by
  unfold chunk
  show x1 ((Rect.unit (s := S1x1024x30) (k0_off1 k) S1x128x30.size (Facts₀.k0_off1_inb k)).idx (ix3 (0 : Fin 1) q d)) = _
  refine congrArg x1 (funext fun a => Fin.ext ?_)
  show k0_off1 k a + 1 * (ix3 (0 : Fin 1) q d a).val = (ix3 (0 : Fin 1) (Cert.PairRelu.row k' q) d a).val
  rw [k0_off1_eq]
  match a with
  | ⟨0, _⟩ => rfl
  | ⟨1, _⟩ =>
    show 128 * k.val + 1 * q.val = 128 * k'.val + q.val
    rw [hk, Nat.one_mul]
  | ⟨2, _⟩ =>
    show 0 + 1 * d.val = d.val
    rw [Nat.zero_add, Nat.one_mul]

/-! ## The accumulator after `n` trips -/

/-- After `n` trips the accumulator at `(p, h)` is the sum, over the first `n` chunks and the 128 rows of each, of the
    rectified contributions. -/
theorem accN_apply (x0 : Vec Ideal S1x128x30 .f32) (x1 : Vec Ideal S1x1024x30 .f32) (x2 x3 : Vec Ideal S30x64 .f32)
    (x4 : Vec Ideal S64 .f32) (n : ℕ) (hn : n ≤ 8) (p : Fin 128) (h : Fin 64) :
    accN (F := Ideal) x0 x1 x2 x3 x4 n (ix2 p h)
      = ∑ k : Fin n, ∑ q : Fin 128, max (((∑ d : Fin 30, x0 (ix3 (0 : Fin 1) p d) * x2 (ix2 d h))
          + (∑ d : Fin 30, x1 (ix3 (0 : Fin 1) (Cert.PairRelu.row (Fin.castLE hn k) q) d) * x3 (ix2 d h)))
          + x4 (ix1 h)) 0 := by
  induction n with
  | zero => rw [accN_zero, pay1_apply, Fin.sum_univ_zero]
  | succ n ih =>
    have hlt : n < k0_t1_loop.trips := by rw [trips_eq]; omega
    have hstep := accN_succ (F := Ideal) x0 x1 x2 x3 x4 ⟨n, hlt⟩
    rw [Fin.sum_univ_castSucc]
    refine (congrFun hstep (ix2 p h)).trans ?_
    rw [pay2_apply, ih (by omega)]
    refine congrArg₂ (· + ·) rfl (Finset.sum_congr rfl fun q _ => ?_)
    simp only [chunk_apply x1 ⟨n, hlt⟩ (Fin.castLE hn (Fin.last n)) rfl]

/-! ## The tile -/

theorem tileOf_apply (x0 : Vec Ideal S1x128x30 .f32) (x1 : Vec Ideal S1x1024x30 .f32) (x2 x3 : Vec Ideal S30x64 .f32)
    (x4 : Vec Ideal S64 .f32) (x5 : Vec Ideal S64x30 .f32) (x6 : Vec Ideal S30 .f32) (p : Fin 128) (o : Fin 30) :
    tileOf (F := Ideal) x0 x1 x2 x3 x4 x5 x6 (ix3 (0 : Fin 1) p o)
      = max ((∑ h : Fin 64, (∑ k : Fin 8, ∑ q : Fin 128,
                max (((∑ d : Fin 30, x0 (ix3 (0 : Fin 1) p d) * x2 (ix2 d h))
                  + (∑ d : Fin 30, x1 (ix3 (0 : Fin 1) (Cert.PairRelu.row k q) d) * x3 (ix2 d h))) + x4 (ix1 h)) 0)
              * x5 (ix2 h o)) + x6 (ix1 o)) 0 := by
  unfold tileOf
  rw [pay3_apply, trips_eq]
  refine congrArg (fun s => max (s + x6 (ix1 o)) 0) (Finset.sum_congr rfl fun h _ => ?_)
  rw [accN_apply x0 x1 x2 x3 x4 8 (Nat.le_refl 8) p h]
  rfl

end Cert.KernelIdeal.Hand

end
-- ==== Proof.KI.Final.lean ====
/-
  The result array after the run is the specification `G` of the argument arrays (at the ideal instance).

  Grid point `t` is a batch `b` and a row tile `s`. Its windows' blocks are: rows `128 s … 128 s + 127` of batch
  `b` of the points (window 0); all 1024 rows of batch `b` (window 1); the two halves of the first map, its bias,
  the second map and its bias whole (windows 2 to 6); and rows `128 s … 128 s + 127` of batch `b` of the result
  (window 7). The tile the body leaves is `tileOf` of those blocks, which, read at row `p` and output unit `o`,
  is `G` at `(b, 128 s + p, o)` with the sum over partner rows grouped in eight chunks. The sixteen result
  blocks tile the result array, so the array ends at `G`.
-/
import proofs.«129004_j12884901888249_1_alg».proof.Proof.KI.Whole
import proofs.«129004_j12884901888249_1_alg».proof.Proof.KI.Tile
import proofs.«129004_j12884901888249_1_alg».proof.Proof.KI.TileAt
import proofs.«129004_j12884901888249_1_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The grid's index maps -/

/-- The printed index maps, decided over the grid: windows 0 and 7 sit at (batch, row tile), window 1 at the
    batch, the others at the origin; the batch is below 2 and the row tile below 8. -/
theorem idx_facts : ∀ t : Fin cfg0.N,
    win0_0.index t (0 : Fin 3) = win0_7.index t (0 : Fin 3) ∧ win0_0.index t (1 : Fin 3) = win0_7.index t (1 : Fin 3) ∧ win0_0.index t (2 : Fin 3) = 0
    ∧ win0_1.index t (0 : Fin 3) = win0_7.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 3) ≤ 1 ∧ win0_7.index t (1 : Fin 3) ≤ 7 ∧ win0_7.index t (2 : Fin 3) = 0 :=
  (by decide +kernel : ∀ t : Fin grid0.N, _)

/-- Every (batch, row tile) is some point's. -/
theorem idx_onto : ∀ (q0 : Fin 2) (q1 : Fin 8), ∃ t : Fin cfg0.N, win0_7.index t = ![q0.val, q1.val, 0] :=
  (by decide +kernel : ∀ (q0 : Fin 2) (q1 : Fin 8), ∃ t : Fin grid0.N, win0_7.index t = ![q0.val, q1.val, 0])

/-- Point `t`'s batch. -/
def bt (t : Fin cfg0.N) : Fin 2 := ⟨win0_7.index t (0 : Fin 3), by have := idx_facts t; omega⟩
/-- Row `p` of point `t`'s row tile, as a row of the batch. -/
def rowOf (t : Fin cfg0.N) (p : Fin 128) : Fin 1024 :=
  ⟨128 * win0_7.index t (1 : Fin 3) + p.val, by have := idx_facts t; have := p.isLt; omega⟩

/-! ## Where each window's block sits in its array -/

theorem emb0 (t : Fin cfg0.N) (p : Fin 128) (d : Fin 30) :
    ((cfg0.win 0).blk t).view.emb (ix3 (0 : Fin 1) p d) = ix3 (bt t) (rowOf t p) d := by
  obtain ⟨e0, e1, e2, -⟩ := idx_facts t
  funext a; apply Fin.ext
  match a with
  | ⟨0, _⟩ => show win0_0.index t (0 : Fin 3) * 1 + 1 * 0 = win0_7.index t (0 : Fin 3); omega
  | ⟨1, _⟩ => show win0_0.index t (1 : Fin 3) * 128 + 1 * p.val = 128 * win0_7.index t (1 : Fin 3) + p.val; omega
  | ⟨2, _⟩ => show win0_0.index t (2 : Fin 3) * 30 + 1 * d.val = d.val; omega

theorem emb1 (t : Fin cfg0.N) (j : Fin 1024) (d : Fin 30) :
    ((cfg0.win 1).blk t).view.emb (ix3 (0 : Fin 1) j d) = ix3 (bt t) j d := by
  obtain ⟨-, -, -, e0, e1, e2, -⟩ := idx_facts t
  funext a; apply Fin.ext
  match a with
  | ⟨0, _⟩ => show win0_1.index t (0 : Fin 3) * 1 + 1 * 0 = win0_7.index t (0 : Fin 3); omega
  | ⟨1, _⟩ => show win0_1.index t (1 : Fin 3) * 1024 + 1 * j.val = j.val; omega
  | ⟨2, _⟩ => show win0_1.index t (2 : Fin 3) * 30 + 1 * d.val = d.val; omega

theorem emb7 (t : Fin cfg0.N) (p : Fin 128) (o : Fin 30) :
    ((cfg0.win 7).blk t).view.emb (ix3 (0 : Fin 1) p o) = ix3 (bt t) (rowOf t p) o := by
  obtain ⟨-, -, -, -, -, -, -, -, -, -, -, -, -, -, -, -, e2⟩ := idx_facts t
  funext a; apply Fin.ext
  match a with
  | ⟨0, _⟩ => show win0_7.index t (0 : Fin 3) * 1 + 1 * 0 = win0_7.index t (0 : Fin 3); omega
  | ⟨1, _⟩ => show win0_7.index t (1 : Fin 3) * 128 + 1 * p.val = 128 * win0_7.index t (1 : Fin 3) + p.val; omega
  | ⟨2, _⟩ => show win0_7.index t (2 : Fin 3) * 30 + 1 * o.val = o.val; omega

theorem emb2 (t : Fin cfg0.N) (d : Fin 30) (h : Fin 64) : ((cfg0.win 2).blk t).view.emb (ix2 d h) = ix2 d h := by
  obtain ⟨-, -, -, -, -, -, e0, e1, -⟩ := idx_facts t
  funext a; apply Fin.ext
  match a with
  | ⟨0, _⟩ => show win0_2.index t (0 : Fin 2) * 30 + 1 * d.val = d.val; omega
  | ⟨1, _⟩ => show win0_2.index t (1 : Fin 2) * 64 + 1 * h.val = h.val; omega

theorem emb3 (t : Fin cfg0.N) (d : Fin 30) (h : Fin 64) : ((cfg0.win 3).blk t).view.emb (ix2 d h) = ix2 d h := by
  obtain ⟨-, -, -, -, -, -, -, -, e0, e1, -⟩ := idx_facts t
  funext a; apply Fin.ext
  match a with
  | ⟨0, _⟩ => show win0_3.index t (0 : Fin 2) * 30 + 1 * d.val = d.val; omega
  | ⟨1, _⟩ => show win0_3.index t (1 : Fin 2) * 64 + 1 * h.val = h.val; omega

theorem emb4 (t : Fin cfg0.N) (h : Fin 64) : ((cfg0.win 4).blk t).view.emb (ix1 h) = ix1 h := by
  obtain ⟨-, -, -, -, -, -, -, -, -, -, e0, -⟩ := idx_facts t
  funext a; apply Fin.ext
  match a with
  | ⟨0, _⟩ => show win0_4.index t (0 : Fin 1) * 64 + 1 * h.val = h.val; omega

theorem emb5 (t : Fin cfg0.N) (h : Fin 64) (o : Fin 30) : ((cfg0.win 5).blk t).view.emb (ix2 h o) = ix2 h o := by
  obtain ⟨-, -, -, -, -, -, -, -, -, -, -, e0, e1, -⟩ := idx_facts t
  funext a; apply Fin.ext
  match a with
  | ⟨0, _⟩ => show win0_5.index t (0 : Fin 2) * 64 + 1 * h.val = h.val; omega
  | ⟨1, _⟩ => show win0_5.index t (1 : Fin 2) * 30 + 1 * o.val = o.val; omega

theorem emb6 (t : Fin cfg0.N) (o : Fin 30) : ((cfg0.win 6).blk t).view.emb (ix1 o) = ix1 o := by
  obtain ⟨-, -, -, -, -, -, -, -, -, -, -, -, -, e0, -⟩ := idx_facts t
  funext a; apply Fin.ext
  match a with
  | ⟨0, _⟩ => show win0_6.index t (0 : Fin 1) * 30 + 1 * o.val = o.val; omega

/-! ## The blocks, read at coordinates -/

theorem blk0_at (c : Dev nD) (t : Fin cfg0.N) (p : Fin 128) (d : Fin 30) :
    iblk m c 0 t (ix3 (0 : Fin 1) p d) = m ((c : Thread nD τ).loc main_arg0) (ix3 (bt t) (rowOf t p) d) := by
  unfold iblk; rw [View.read_apply, emb0]; exact congrFun (V_main_arg0 m c) _

theorem blk1_at (c : Dev nD) (t : Fin cfg0.N) (j : Fin 1024) (d : Fin 30) :
    iblk m c 1 t (ix3 (0 : Fin 1) j d) = m ((c : Thread nD τ).loc main_arg0) (ix3 (bt t) j d) := by
  unfold iblk; rw [View.read_apply, emb1]; exact congrFun (V_main_arg0 m c) _

/-- The first slice holds the upper half of the first map, -/
theorem V_v0 (c : Dev nD) : (V m c main_v0 : S30x64.Idx → EReal)
    = extractStridedSlice S30x64 ![0, 0] (m ((c : Thread nD τ).loc main_arg1)) Facts₀.slices_S60x64_S30x64_0_0 := by
  dsimp only [V, hostOps0]; after_results
/-- and the second its lower half. -/
theorem V_v1 (c : Dev nD) : (V m c main_v1 : S30x64.Idx → EReal)
    = extractStridedSlice S30x64 ![30, 0] (m ((c : Thread nD τ).loc main_arg1)) Facts₀.slices_S60x64_S30x64_30_0 := by
  dsimp only [V, hostOps0]; after_results

theorem wlo_at (c : Dev nD) (t : Fin cfg0.N) (d : Fin 30) (h : Fin 64) :
    iblk m c 2 t (ix2 d h) = m ((c : Thread nD τ).loc main_arg1) (ix2 (Cert.PairRelu.lo d) h) := by
  unfold iblk; rw [View.read_apply, emb2]
  show V m c main_v0 (ix2 d h) = _
  rw [V_v0]
  exact extractStridedSlice_apply ![0, 0] _ _ (ix2 d h) (ix2 (Cert.PairRelu.lo d) h) (fun a => match a with
    | ⟨0, _⟩ => by show d.val = 0 + d.val; omega
    | ⟨1, _⟩ => by show h.val = 0 + h.val; omega)

theorem whi_at (c : Dev nD) (t : Fin cfg0.N) (d : Fin 30) (h : Fin 64) :
    iblk m c 3 t (ix2 d h) = m ((c : Thread nD τ).loc main_arg1) (ix2 (Cert.PairRelu.hi d) h) := by
  unfold iblk; rw [View.read_apply, emb3]
  show V m c main_v1 (ix2 d h) = _
  rw [V_v1]
  exact extractStridedSlice_apply ![30, 0] _ _ (ix2 d h) (ix2 (Cert.PairRelu.hi d) h) (fun a => match a with
    | ⟨0, _⟩ => by show 30 + d.val = 30 + d.val; omega
    | ⟨1, _⟩ => by show h.val = 0 + h.val; omega)

theorem bias1_at (c : Dev nD) (t : Fin cfg0.N) (h : Fin 64) :
    iblk m c 4 t (ix1 h) = m ((c : Thread nD τ).loc main_arg2) (ix1 h) := by
  unfold iblk; rw [View.read_apply, emb4]; exact congrFun (V_main_arg2 m c) _

theorem w2_at (c : Dev nD) (t : Fin cfg0.N) (h : Fin 64) (o : Fin 30) :
    iblk m c 5 t (ix2 h o) = m ((c : Thread nD τ).loc main_arg3) (ix2 h o) := by
  unfold iblk; rw [View.read_apply, emb5]; exact congrFun (V_main_arg3 m c) _

theorem bias2_at (c : Dev nD) (t : Fin cfg0.N) (o : Fin 30) :
    iblk m c 6 t (ix1 o) = m ((c : Thread nD τ).loc main_arg4) (ix1 o) := by
  unfold iblk; rw [View.read_apply, emb6]; exact congrFun (V_main_arg4 m c) _

/-! ## What each point writes back, the cover, and the array -/

/-- The specification at the launch contents of the five arguments. -/
abbrev Gm (c : Dev nD) : S2x1024x30.Idx → EReal :=
  Cert.PairRelu.G (m ((c : Thread nD τ).loc main_arg0)) (m ((c : Thread nD τ).loc main_arg1)) (m ((c : Thread nD τ).loc main_arg2))
    (m ((c : Thread nD τ).loc main_arg3)) (m ((c : Thread nD τ).loc main_arg4))

/-- What point `t` writes back is block `t` of the specification. -/
theorem flushed_eq (c : Dev nD) (t : Fin cfg0.N) :
    (dats m 0 c).flushed 7 t = ((cfg0.win 7).blk t).view.read (Elt Ideal) (Gm m c) := by
  show (cfg0.win 7).cut (grid0.coords t) ((dats m 0 c).after 7 t) = _
  rw [after7]
  unfold outAt
  rw [outTile_eq]
  funext j
  obtain ⟨u, p, o, rfl⟩ : ∃ (u : Fin 1) (p : Fin 128) (o : Fin 30), j = ix3 u p o := ⟨j 0, j 1, j 2, eq_ix3 j⟩
  obtain rfl : u = 0 := Subsingleton.elim _ _
  rw [View.read_apply, emb7]
  show tileOf (F := Ideal) (iblk m c 0 t) (iblk m c 1 t) (iblk m c 2 t) (iblk m c 3 t) (iblk m c 4 t) (iblk m c 5 t) (iblk m c 6 t) (ix3 (0 : Fin 1) p o) = _
  rw [tileOf_apply]
  simp only [blk0_at, blk1_at, wlo_at, whi_at, bias1_at, w2_at, bias2_at]
  show _ = Cert.PairRelu.G _ _ _ _ _ (ix3 (bt t) (rowOf t p) o)
  unfold Cert.PairRelu.G
  simp only [Cert.PairRelu.agg_chunks]
  rfl

/-- An index of the result array is in point `t`'s block iff each coordinate is in the block's range. -/
theorem mem_blk7 (t : Fin cfg0.N) (i : S2x1024x30.Idx) :
    i ∈ ((cfg0.win 7).blk t).view.set ↔ ∀ a : Fin 3, win0_7.index t a * S1x128x30.size a ≤ (i a).val ∧ (i a).val < win0_7.index t a * S1x128x30.size a + S1x128x30.size a := by
  show i ∈ ((View.whole main_v2).slice (win0_7.rect t)).set ↔ _
  rw [View.set_slice_whole, Rect.mem_set_unit]
  exact Iff.rfl

/-- The sixteen result blocks tile the result array: row `r` of batch `b` is in the block of (b, r / 128). -/
theorem cover7 (i : S2x1024x30.Idx) : ∃ t : Fin cfg0.N, (cfg0.win 7).flush t = true ∧ i ∈ ((cfg0.win 7).blk t).view.set := by
  have h0 : (i 0).val < 2 := (i 0).isLt
  have h1 : (i 1).val < 1024 := (i 1).isLt
  have h2 : (i 2).val < 30 := (i 2).isLt
  obtain ⟨t, ht⟩ := idx_onto ⟨(i 0).val, h0⟩ ⟨(i 1).val / 128, by omega⟩
  have q0 : win0_7.index t (0 : Fin 3) = (i 0).val := congrFun ht 0
  have q1 : win0_7.index t (1 : Fin 3) = (i 1).val / 128 := congrFun ht 1
  have q2 : win0_7.index t (2 : Fin 3) = 0 := congrFun ht 2
  refine ⟨t, flush0_7 t, ?_⟩
  rw [mem_blk7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 128 ≤ (i 1).val ∧ (i 1).val < win0_7.index t (1 : Fin 3) * 128 + 128; omega
  | ⟨2, _⟩ => show win0_7.index t (2 : Fin 3) * 30 ≤ (i 2).val ∧ (i 2).val < win0_7.index t (2 : Fin 3) * 30 + 30; omega

/-- The result array after the run is the specification of the launch contents. -/
theorem final (c : Dev nD) : (dats m 0 c).arrAt 7 cfg0.N = Gm m c :=
  (dats m 0 c).arrAt_eq_of_cover 7 (Gm m c) (fun t _ => flushed_eq m c t) cover7

/-- The run, read: the result array at the specification, the arguments unchanged. -/
theorem run_value : θ_run defs (onTc (τ := τ) (main (F := Ideal))) ⟨m, fun _ => 0, ρ⟩ (fun r => ∀ c : Dev nD,
      r.2.mem ((c.tc : Thread nD τ).loc main_v2) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (final m c), (h c).2⟩) (run_main m ρ)

end Cert.KernelIdeal.Hand

end
-- ==== Proof.RefValue.lean ====
/-
  The reference program's last stage, read at the ideal values, is the function `G` of the specification.

  The program computes, stage by stage: the two halves of `W` (slices), the two projections of the points (one
  contraction each), their outer sum over pairs of rows of a batch (two broadcasts and an addition), the bias, a
  `relu`, the sum over the partner row, the second linear map with its bias, and a last `relu`. Reading each stage
  at an index from its operands at an index turns the array equation into one between extended reals: first the two
  projections at `(b, n, h)`, then the pair term at `(b, n, j, h)`, then the summed term at `(b, n, h)`, then the
  result at `(b, n, o)`. The only work is to identify the composed index maps of the layout stages with indices
  given by their coordinates. Nothing here needs a value to be finite.
-/
import proofs.«129004_j12884901888249_1_alg».proof.Proof.Gen.ReferenceIdeal.Read
import proofs.«129004_j12884901888249_1_alg».proof.Proof.Spec
import Idealize.ShloMosaic.Lib.ValueIdx
import Idealize.ShloMosaic.PureOps.Ideal
import Idealize.ShloMosaic.PureOps.Ideal.Laws

noncomputable section

namespace Cert.ReferenceIdeal.RefValue

open Cert.ReferenceIdeal Cert.ReferenceIdeal.Read Cert.PairRelu Idealize.ShloMosaic Idealize.ShloMosaic.ValueIdx

/-- The first projection at `(b, n, h)`: row `n` of batch `b` against the upper half of `W`. -/
theorem v1_at (x0 : (⟨S2x1024x30, .f32⟩ : BufTy).Contents (Elt Ideal)) (x1 : (⟨S60x64, .f32⟩ : BufTy).Contents (Elt Ideal))
    (b : Fin 2) (n : Fin 1024) (h : Fin 64) :
    val_main_v1 (F := Ideal) x0 x1 (ix3 b n h) = projLo x0 x1 b n h := by
  rw [val_main_v1_apply]
  unfold projLo
  refine Finset.sum_congr rfl fun d _ => ?_
  rw [val_main_v0_apply]
  have e0 : lidx_main_v1 (ix3 b n h) d = ix3 b n d := by
    funext a; match a with | ⟨0, _⟩ => rfl | ⟨1, _⟩ => rfl | ⟨2, _⟩ => rfl
  have e1 : idx_main_v0 (ridx_main_v1 (ix3 b n h) d) = ix2 (lo d) h := by
    funext a; match a with | ⟨0, _⟩ => rfl | ⟨1, _⟩ => rfl
  rw [e0, e1]

/-- The second projection at `(b, j, h)`: row `j` of batch `b` against the lower half of `W`. -/
theorem v3_at (x0 : (⟨S2x1024x30, .f32⟩ : BufTy).Contents (Elt Ideal)) (x1 : (⟨S60x64, .f32⟩ : BufTy).Contents (Elt Ideal))
    (b : Fin 2) (j : Fin 1024) (h : Fin 64) :
    val_main_v3 (F := Ideal) x0 x1 (ix3 b j h) = projHi x0 x1 b j h := by
  rw [val_main_v3_apply]
  unfold projHi
  refine Finset.sum_congr rfl fun d _ => ?_
  rw [val_main_v2_apply]
  have e0 : lidx_main_v3 (ix3 b j h) d = ix3 b j d := by
    funext a; match a with | ⟨0, _⟩ => rfl | ⟨1, _⟩ => rfl | ⟨2, _⟩ => rfl
  have e1 : idx_main_v2 (ridx_main_v3 (ix3 b j h) d) = ix2 (hi d) h := by
    funext a; match a with | ⟨0, _⟩ => rfl | ⟨1, _⟩ => rfl
  rw [e0, e1]

/-- The pair term at `(b, n, j, h)`. -/
theorem v12_at (x0 : (⟨S2x1024x30, .f32⟩ : BufTy).Contents (Elt Ideal)) (x1 : (⟨S60x64, .f32⟩ : BufTy).Contents (Elt Ideal))
    (x2 : (⟨S64, .f32⟩ : BufTy).Contents (Elt Ideal)) (b : Fin 2) (n j : Fin 1024) (h : Fin 64) :
    val_main_v12 (F := Ideal) x0 x1 x2 (ix4 b n j h) = pair x0 x1 x2 b n j h := by
  rw [val_main_v12_apply, val_main_v11_apply, val_main_v8_apply, val_main_v6_apply, val_main_v4_apply,
    val_main_v7_apply, val_main_v5_apply, val_main_v10_apply, val_main_v9_apply, val_main_call0_v0_apply,
    val_main_call0_cst_apply]
  have e1 : idx_main_v4 (idx_main_v6 (ix4 b n j h)) = ix3 b n h := by
    funext a; match a with | ⟨0, _⟩ => rfl | ⟨1, _⟩ => rfl | ⟨2, _⟩ => rfl
  have e3 : idx_main_v5 (idx_main_v7 (ix4 b n j h)) = ix3 b j h := by
    funext a; match a with | ⟨0, _⟩ => rfl | ⟨1, _⟩ => rfl | ⟨2, _⟩ => rfl
  have e9 : idx_main_v9 (idx_main_v10 (ix4 b n j h)) = ix1 h := by
    funext a; match a with | ⟨0, _⟩ => rfl
  rw [e1, e3, e9, v1_at, v3_at, Ideal.maximumf_def, Ideal.addf_def, Ideal.addf_def, Ideal.ofBits_def,
    Ideal.ofBits_zero_f32]
  rfl

/-- The summed term at `(b, n, h)`. -/
theorem v13_at (x0 : (⟨S2x1024x30, .f32⟩ : BufTy).Contents (Elt Ideal)) (x1 : (⟨S60x64, .f32⟩ : BufTy).Contents (Elt Ideal))
    (x2 : (⟨S64, .f32⟩ : BufTy).Contents (Elt Ideal)) (b : Fin 2) (n : Fin 1024) (h : Fin 64) :
    val_main_v13 (F := Ideal) x0 x1 x2 (ix3 b n h) = agg x0 x1 x2 b n h := by
  rw [val_main_v13_apply, val_main_cst_apply, Ideal.ofBits_def, Ideal.ofBits_zero_f32, zero_add]
  unfold agg
  refine Finset.sum_congr rfl fun j _ => ?_
  have e : idx_main_v13 (ix3 b n h) j = ix4 b n j h := by
    funext a; match a with | ⟨0, _⟩ => rfl | ⟨1, _⟩ => rfl | ⟨2, _⟩ => rfl | ⟨3, _⟩ => rfl
  rw [e, v12_at]

/-- The result at `(b, n, o)`. -/
theorem v18_at (x0 : (⟨S2x1024x30, .f32⟩ : BufTy).Contents (Elt Ideal)) (x1 : (⟨S60x64, .f32⟩ : BufTy).Contents (Elt Ideal))
    (x2 : (⟨S64, .f32⟩ : BufTy).Contents (Elt Ideal)) (x3 : (⟨S64x30, .f32⟩ : BufTy).Contents (Elt Ideal))
    (x4 : (⟨S30, .f32⟩ : BufTy).Contents (Elt Ideal)) (b : Fin 2) (n : Fin 1024) (o : Fin 30) :
    val_main_v18 (F := Ideal) x0 x1 x2 x3 x4 (ix3 b n o) = G x0 x1 x2 x3 x4 (ix3 b n o) := by
  rw [val_main_v18_apply, val_main_v17_apply, val_main_v14_apply, val_main_v16_apply, val_main_v15_apply,
    val_main_call1_v0_apply, val_main_call1_cst_apply]
  have e4 : idx_main_v15 (idx_main_v16 (ix3 b n o)) = ix1 o := by
    funext a; match a with | ⟨0, _⟩ => rfl
  have es : ∀ h : Fin 64, (val_main_v13 (F := Ideal) x0 x1 x2) (lidx_main_v14 (ix3 b n o) h) * x3 (ridx_main_v14 (ix3 b n o) h)
      = agg x0 x1 x2 b n h * x3 (ix2 h o) := by
    intro h
    have el : lidx_main_v14 (ix3 b n o) h = ix3 b n h := by
      funext a; match a with | ⟨0, _⟩ => rfl | ⟨1, _⟩ => rfl | ⟨2, _⟩ => rfl
    have er : ridx_main_v14 (ix3 b n o) h = ix2 h o := by
      funext a; match a with | ⟨0, _⟩ => rfl | ⟨1, _⟩ => rfl
    rw [el, er, v13_at]
  rw [e4, Finset.sum_congr rfl fun h _ => es h, Ideal.maximumf_def, Ideal.addf_def, Ideal.ofBits_def,
    Ideal.ofBits_zero_f32]
  rfl

/-- The reference program's last stage is `G`. -/
theorem ref_eq (x0 : (⟨S2x1024x30, .f32⟩ : BufTy).Contents (Elt Ideal)) (x1 : (⟨S60x64, .f32⟩ : BufTy).Contents (Elt Ideal))
    (x2 : (⟨S64, .f32⟩ : BufTy).Contents (Elt Ideal)) (x3 : (⟨S64x30, .f32⟩ : BufTy).Contents (Elt Ideal))
    (x4 : (⟨S30, .f32⟩ : BufTy).Contents (Elt Ideal)) :
    Cert.ReferenceIdeal.Read.val_main_v18 (F := Ideal) x0 x1 x2 x3 x4 = Cert.PairRelu.G x0 x1 x2 x3 x4 := by
  funext i
  rw [eq_ix3 i]
  exact v18_at x0 x1 x2 x3 x4 (i 0) (i 1) (i 2)

end Cert.ReferenceIdeal.RefValue

end
-- ==== Proof.lean ====
/-
  `Cert.Claim`: the pairwise-relu aggregation kernel against its jnp reference.

  Both programs compute, for every batch `b`, row `n` and output unit `o`,

      relu ((Σ_h (Σ_j relu ((z[b,n,:] · W[0:30,h] + z[b,j,:] · W[30:60,h]) + c[h])) · A[h,o]) + e[o]).

  The reference materializes the 1024 × 1024 pair tensor per batch and sums over the partner row `j`; the kernel
  walks a grid of (batch, tile of 128 rows), and inside a grid point loops over eight chunks of 128 partner rows,
  adding each chunk's sum into an accumulator it zeroed first. On the extended reals the two agree by regrouping the
  sum over `j` into chunks — commutativity and associativity of addition only, so the precondition is never opened.

  The frames of the two kernel programs: the region's body is run symbolically on arbitrary staging memrefs (its
  counted loop by an invariant over a symbolic trip), the points' array, which the kernel reads through two windows,
  is shared between them in halves, and the launch theorem for windows that share an array closes the run. The
  reference has no kernel: its frame is its run with the result dropped. The ideal pass rewrote nothing, so
  `preserves` is `True`.
-/
import proofs.«129004_j12884901888249_1_alg».proof.Defs
import proofs.«129004_j12884901888249_1_alg».proof.Proof.Gen.Kernel
import proofs.«129004_j12884901888249_1_alg».proof.Proof.Gen.KernelIdeal
import proofs.«129004_j12884901888249_1_alg».proof.Proof.Gen.ReferenceIdeal
import proofs.«129004_j12884901888249_1_alg».proof.Proof.Gen.Pre_finite_inputs
import proofs.«129004_j12884901888249_1_alg».proof.Proof.Gen.ReferenceIdeal.Run
import proofs.«129004_j12884901888249_1_alg».proof.Proof.Gen.ReferenceIdeal.Read
import proofs.«129004_j12884901888249_1_alg».proof.Proof.K.Whole
import proofs.«129004_j12884901888249_1_alg».proof.Proof.KI.Final
import proofs.«129004_j12884901888249_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the result array at the specification `G` of
    the arguments: the kernel's by its value run, the reference's by its run read one operation at a time. -/
theorem algebraic : Cert.algebraic_KernelIdeal_ReferenceIdeal := by
  intro m ρ m' ρ' _ hagree
  refine ⟨fun c => Cert.KernelIdeal.Hand.Gm m c, Cert.KernelIdeal.Hand.run_value m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v18_eq, Cert.ReferenceIdeal.RefValue.ref_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
